-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x128 : Shape := ⟨2, ![400000, 128]⟩
abbrev S64x128 : Shape := ⟨2, ![64, 128]⟩
abbrev S400000 : Shape := ⟨1, ![400000]⟩
abbrev S512x100 : Shape := ⟨2, ![512, 100]⟩
abbrev S100 : Shape := ⟨1, ![100]⟩
abbrev S100x100 : Shape := ⟨2, ![100, 100]⟩
abbrev S100x128 : Shape := ⟨2, ![100, 128]⟩
abbrev S128 : Shape := ⟨1, ![128]⟩
abbrev S_ : Shape := ⟨0, ![]⟩

class Facts : Prop where
  bcast_S_S400000x128 : S_.BroadcastsInDim S400000x128 (![] : Fin 0 → Fin S400000x128.rank)
  reducesTo_S400000x128_S_d0_1 : S400000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S512x100 : S_.BroadcastsInDim S512x100 (![] : Fin 0 → Fin S512x100.rank)
  reducesTo_S512x100_S_d0_1 : S512x100.ReducesTo [0, 1] S_
  bcast_S_S100 : S_.BroadcastsInDim S100 (![] : Fin 0 → Fin S100.rank)
  reducesTo_S100_S_d0 : S100.ReducesTo [0] S_
  bcast_S_S100x100 : S_.BroadcastsInDim S100x100 (![] : Fin 0 → Fin S100x100.rank)
  reducesTo_S100x100_S_d0_1 : S100x100.ReducesTo [0, 1] S_
  bcast_S_S100x128 : S_.BroadcastsInDim S100x128 (![] : Fin 0 → Fin S100x128.rank)
  reducesTo_S100x128_S_d0_1 : S100x128.ReducesTo [0, 1] S_
  bcast_S_S128 : S_.BroadcastsInDim S128 (![] : Fin 0 → Fin S128.rank)
  reducesTo_S128_S_d0 : S128.ReducesTo [0] S_
  bcast_S_S400000 : S_.BroadcastsInDim S400000 (![] : Fin 0 → Fin S400000.rank)
  reducesTo_S400000_S_d0 : S400000.ReducesTo [0] S_

variable [Facts]

def fn_part4 {F : FTy → Type} [FloatOps F] (main_arg4 : IVec S400000 32) (main_v63 : IVec S_ 1) (main_v67 : IVec S_ 1) : IVec S_ 1 :=
  let main_v68 : IVec S_ 1 := andi main_v63 main_v67
  let main_c_26 : IVec S_ 32 := constantI S_ 32 0#32
  let main_v69 : IVec S400000 32 := broadcastInDim S400000 ![] bcast_S_S400000 main_c_26
  let main_v70 : IVec S400000 1 := cmpi .sge main_arg4 main_v69
  let main_c_27 : IVec S_ 32 := constantI S_ 32 64#32
  let main_v71 : IVec S400000 32 := broadcastInDim S400000 ![] bcast_S_S400000 main_c_27
  let main_v72 : IVec S400000 1 := cmpi .slt main_arg4 main_v71
  let main_v73 : IVec S400000 1 := andi main_v70 main_v72
  let main_c_28 : IVec S_ 1 := constantI S_ 1 1#1
  let main_v74 : IVec S_ 1 := (fun x v => Host.reduce IntOp.andi x v reducesTo_S400000_S_d0 h_S_) main_v73 main_c_28
  let main_v75 : IVec S_ 1 := andi main_v68 main_v74
  main_v75

def fn_part3 {F : FTy → Type} [FloatOps F] (main_arg4 : IVec S400000 32) (main_arg12 : FVec F S128 .f32) (main_arg13 : FVec F S128 .f32) (main_arg14 : FVec F S128 .f32) (main_v48 : IVec S_ 1) (main_v49 : FVec F S100x128 .f32) (main_v50 : FVec F S100x128 .f32) : IVec S_ 1 :=
  let main_v51 : IVec S100x128 1 := cmpf .olt main_v49 main_v50
  let main_c_19 : IVec S_ 1 := constantI S_ 1 1#1
  let main_v52 : IVec S_ 1 := (fun x v => Host.reduce IntOp.andi x v reducesTo_S100x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg4 main_v63 main_v67

def fn_part2 {F : FTy → Type} [FloatOps F] (main_arg4 : IVec S400000 32) (main_arg8 : FVec F S100 .f32) (main_arg9 : FVec F S100x100 .f32) (main_arg10 : FVec F S100 .f32) (main_arg11 : FVec F S100x128 .f32) (main_arg12 : FVec F S128 .f32) (main_arg13 : FVec F S128 .f32) (main_arg14 : FVec F S128 .f32) (main_v33 : IVec S_ 1) : IVec S_ 1 :=
  let main_v34 : FVec F S100 .f32 := Host.absf main_arg8
  let main_cst_12 : FVec F S_ .f32 := constant S_ .f32 0x7F800000#32
  let main_v35 : FVec F S100 .f32 := broadcastInDim S100 ![] bcast_S_S100 main_cst_12
  let main_v36 : IVec S100 1 := cmpf .olt main_v34 main_v35
  let main_c_13 : IVec S_ 1 := constantI S_ 1 1#1
  let main_v37 : IVec S_ 1 := (fun x v => Host.reduce IntOp.andi x v reducesTo_S100_S_d0 h_S_) main_v36 main_c_13
  let main_v38 : IVec S_ 1 := andi main_v33 main_v37
  let main_v39 : FVec F S100x100 .f32 := Host.absf main_arg9
  let main_cst_14 : FVec F S_ .f32 := constant S_ .f32 0x7F800000#32
  let main_v40 : FVec F S100x100 .f32 := broadcastInDim S100x100 ![] bcast_S_S100x100 main_cst_14
  let main_v41 : IVec S100x100 1 := cmpf .olt main_v39 main_v40
  let main_c_15 : IVec S_ 1 := constantI S_ 1 1#1
  let main_v42 : IVec S_ 1 := (fun x v => Host.reduce IntOp.andi x v reducesTo_S100x100_S_d0_1 h_S_) main_v41 main_c_15
  let main_v43 : IVec S_ 1 := andi main_v38 main_v42
  let main_v44 : FVec F S100 .f32 := Host.absf main_arg10
  let main_cst_16 : FVec F S_ .f32 := constant S_ .f32 0x7F800000#32
  let main_v45 : FVec F S100 .f32 := broadcastInDim S100 ![] bcast_S_S100 main_cst_16
  let main_v46 : IVec S100 1 := cmpf .olt main_v44 main_v45
  let main_c_17 : IVec S_ 1 := constantI S_ 1 1#1
  let main_v47 : IVec S_ 1 := (fun x v => Host.reduce IntOp.andi x v reducesTo_S100_S_d0 h_S_) main_v46 main_c_17
  let main_v48 : IVec S_ 1 := andi main_v43 main_v47
  let main_v49 : FVec F S100x128 .f32 := Host.absf main_arg11
  let main_cst_18 : FVec F S_ .f32 := constant S_ .f32 0x7F800000#32
  let main_v50 : FVec F S100x128 .f32 := broadcastInDim S100x128 ![] bcast_S_S100x128 main_cst_18
  fn_part3 (F := F) main_arg4 main_arg12 main_arg13 main_arg14 main_v48 main_v49 main_v50

def fn_part1 {F : FTy → Type} [FloatOps F] (main_arg4 : IVec S400000 32) (main_arg5 : FVec F S512x100 .f32) (main_arg6 : FVec F S100 .f32) (main_arg7 : FVec F S100x100 .f32) (main_arg8 : FVec F S100 .f32) (main_arg9 : FVec F S100x100 .f32) (main_arg10 : FVec F S100 .f32) (main_arg11 : FVec F S100x128 .f32) (main_arg12 : FVec F S128 .f32) (main_arg13 : FVec F S128 .f32) (main_arg14 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S512x100 .f32 := Host.absf main_arg5
  let main_cst_6 : FVec F S_ .f32 := constant S_ .f32 0x7F800000#32
  let main_v20 : FVec F S512x100 .f32 := broadcastInDim S512x100 ![] bcast_S_S512x100 main_cst_6
  let main_v21 : IVec S512x100 1 := cmpf .olt main_v19 main_v20
  let main_c_7 : IVec S_ 1 := constantI S_ 1 1#1
  let main_v22 : IVec S_ 1 := (fun x v => Host.reduce IntOp.andi x v reducesTo_S512x100_S_d0_1 h_S_) main_v21 main_c_7
  let main_v23 : IVec S_ 1 := andi main_v18 main_v22
  let main_v24 : FVec F S100 .f32 := Host.absf main_arg6
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S100x100 .f32 := Host.absf main_arg7
  let main_cst_10 : FVec F S_ .f32 := constant S_ .f32 0x7F800000#32
  let main_v30 : FVec F S100x100 .f32 := broadcastInDim S100x100 ![] bcast_S_S100x100 main_cst_10
  let main_v31 : IVec S100x100 1 := cmpf .olt main_v29 main_v30
  let main_c_11 : IVec S_ 1 := constantI S_ 1 1#1
  let main_v32 : IVec S_ 1 := (fun x v => Host.reduce IntOp.andi x v reducesTo_S100x100_S_d0_1 h_S_) main_v31 main_c_11
  let main_v33 : IVec S_ 1 := andi main_v28 main_v32
  fn_part2 (F := F) main_arg4 main_arg8 main_arg9 main_arg10 main_arg11 main_arg12 main_arg13 main_arg14 main_v33

def fn {F : FTy → Type} [FloatOps F] (main_arg0 : FVec F S400000x128 .f32) (main_arg1 : FVec F S400000x128 .f32) (main_arg2 : FVec F S400000x128 .f32) (main_arg3 : FVec F S64x128 .f32) (main_arg4 : IVec S400000 32) (main_arg5 : FVec F S512x100 .f32) (main_arg6 : FVec F S100 .f32) (main_arg7 : FVec F S100x100 .f32) (main_arg8 : FVec F S100 .f32) (main_arg9 : FVec F S100x100 .f32) (main_arg10 : FVec F S100 .f32) (main_arg11 : FVec F S100x128 .f32) (main_arg12 : FVec F S128 .f32) (main_arg13 : FVec F S128 .f32) (main_arg14 : FVec F S128 .f32) : IVec S_ 1 :=
  let main_v0 : FVec F S400000x128 .f32 := Host.absf main_arg0
  let main_cst : FVec F S_ .f32 := constant S_ .f32 0x7F800000#32
  let main_v1 : FVec F S400000x128 .f32 := broadcastInDim S400000x128 ![] bcast_S_S400000x128 main_cst
  let main_v2 : IVec S400000x128 1 := cmpf .olt main_v0 main_v1
  let main_c : IVec S_ 1 := constantI S_ 1 1#1
  let main_v3 : IVec S_ 1 := (fun x v => Host.reduce IntOp.andi x v reducesTo_S400000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S400000x128 .f32 := Host.absf main_arg2
  let main_cst_2 : FVec F S_ .f32 := constant S_ .f32 0x7F800000#32
  let main_v10 : FVec F S400000x128 .f32 := broadcastInDim S400000x128 ![] bcast_S_S400000x128 main_cst_2
  let main_v11 : IVec S400000x128 1 := cmpf .olt main_v9 main_v10
  let main_c_3 : IVec S_ 1 := constantI S_ 1 1#1
  let main_v12 : IVec S_ 1 := (fun x v => Host.reduce IntOp.andi x v reducesTo_S400000x128_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S400000x128 : Shape := ⟨2, ![400000, 128]⟩
abbrev S64x128 : Shape := ⟨2, ![64, 128]⟩
abbrev S400000 : Shape := ⟨1, ![400000]⟩
abbrev S512x100 : Shape := ⟨2, ![512, 100]⟩
abbrev S100 : Shape := ⟨1, ![100]⟩
abbrev S100x100 : Shape := ⟨2, ![100, 100]⟩
abbrev S100x128 : Shape := ⟨2, ![100, 128]⟩
abbrev S128 : Shape := ⟨1, ![128]⟩
abbrev S80x1x5000 : Shape := ⟨3, ![80, 1, 5000]⟩
abbrev S1x1x5000 : Shape := ⟨3, ![1, 1, 5000]⟩
abbrev S5000x128 : Shape := ⟨2, ![5000, 128]⟩
abbrev S1x5000 : Shape := ⟨2, ![1, 5000]⟩
abbrev S64x5000 : Shape := ⟨2, ![64, 5000]⟩
abbrev S128x100 : Shape := ⟨2, ![128, 100]⟩
abbrev S5000x100 : Shape := ⟨2, ![5000, 100]⟩
abbrev S1x100 : Shape := ⟨2, ![1, 100]⟩
abbrev S1x128 : Shape := ⟨2, ![1, 128]⟩
abbrev S5000 : Shape := ⟨1, ![5000]⟩
abbrev S5000x1 : Shape := ⟨2, ![5000, 1]⟩

abbrev nBuf : Space → Nat
  | .hbm => 17
  | .vmem => 21
  | .smem => 0
  | _ => 0

abbrev bufTy : (tb : Table) → Fin (tcTables nBuf tb) → BufTy
  | .hbm, ⟨0, _⟩ => ⟨S400000x128, .f32⟩
  | .hbm, ⟨1, _⟩ => ⟨S400000x128, .f32⟩
  | .hbm, ⟨2, _⟩ => ⟨S400000x128, .f32⟩
  | .hbm, ⟨3, _⟩ => ⟨S64x128, .f32⟩
  | .hbm, ⟨4, _⟩ => ⟨S400000, .i32⟩
  | .hbm, ⟨5, _⟩ => ⟨S512x100, .f32⟩
  | .hbm, ⟨6, _⟩ => ⟨S100, .f32⟩
  | .hbm, ⟨7, _⟩ => ⟨S100x100, .f32⟩
  | .hbm, ⟨8, _⟩ => ⟨S100, .f32⟩
  | .hbm, ⟨9, _⟩ => ⟨S100x100, .f32⟩
  | .hbm, ⟨10, _⟩ => ⟨S100, .f32⟩
  | .hbm, ⟨11, _⟩ => ⟨S100x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S80x1x5000, .i32⟩
  | .hbm, ⟨16, _⟩ => ⟨S400000x128, .f32⟩
  | .local _ .vmem, ⟨0, _⟩ => ⟨S1x1x5000, .i32⟩
  | .local _ .vmem, ⟨1, _⟩ => ⟨S1x1x5000, .i32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S64x128, .f32⟩
  | .local _ .vmem, ⟨9, _⟩ => ⟨S512x100, .f32⟩
  | .local _ .vmem, ⟨10, _⟩ => ⟨S100, .f32⟩
  | .local _ .vmem, ⟨11, _⟩ => ⟨S100x100, .f32⟩
  | .local _ .vmem, ⟨12, _⟩ => ⟨S100, .f32⟩
  | .local _ .vmem, ⟨13, _⟩ => ⟨S100x100, .f32⟩
  | .local _ .vmem, ⟨14, _⟩ => ⟨S100, .f32⟩
  | .local _ .vmem, ⟨15, _⟩ => ⟨S100x128, .f32⟩
  | .local _ .vmem, ⟨16, _⟩ => ⟨S128, .f32⟩
  | .local _ .vmem, ⟨17, _⟩ => ⟨S128, .f32⟩
  | .local _ .vmem, ⟨18, _⟩ => ⟨S128, .f32⟩
  | .local _ .vmem, ⟨19, _⟩ => ⟨S5000x128, .f32⟩
  | .local _ .vmem, ⟨20, _⟩ => ⟨S5000x128, .f32⟩
  | _, _ => ⟨S400000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![80], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x5000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S100x100 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S100 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S100x100 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S100 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S100x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S5000x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S400000_S80x1x5000 : S400000.ShapeCasts S80x1x5000
  inb_S1x1x5000_S1x1x5000_0_0_0 : ∀ a, (![0, 0, 0] : Fin 3 → Nat) a + S1x1x5000.size a ≤ S1x1x5000.size a
  h_S1x1x5000 : 0 < S1x1x5000.numel
  shapeCasts_S1x1x5000_S1x5000 : S1x1x5000.ShapeCasts S1x5000
  iota_S64x5000_d0_w32 : S64x5000.Iotas .tc 32 [0]
  broadcasts_S1x5000_S64x5000 : S1x5000.Broadcasts S64x5000
  natLt_1_32 : 1 < 32
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  inb_S512x100_S512x100_0_0 : ∀ a, (![0, 0] : Fin 2 → Nat) a + S512x100.size a ≤ S512x100.size a
  h_S512x100 : 0 < S512x100.numel
  slices_S512x100_o0_0_S128x100 : S512x100.Slices ![0, 0] S128x100
  slices_S512x100_o128_0_S128x100 : S512x100.Slices ![128, 0] S128x100
  slices_S512x100_o256_0_S128x100 : S512x100.Slices ![256, 0] S128x100
  slices_S512x100_o384_0_S128x100 : S512x100.Slices ![384, 0] S128x100
  inb_S100_S100_0 : ∀ a, (![0] : Fin 1 → Nat) a + S100.size a ≤ S100.size a
  h_S100 : 0 < S100.numel
  shapeCasts_S100_S1x100 : S100.ShapeCasts S1x100
  broadcasts_S1x100_S5000x100 : S1x100.Broadcasts S5000x100
  inb_S100x100_S100x100_0_0 : ∀ a, (![0, 0] : Fin 2 → Nat) a + S100x100.size a ≤ S100x100.size a
  h_S100x100 : 0 < S100x100.numel
  inb_S100x128_S100x128_0_0 : ∀ a, (![0, 0] : Fin 2 → Nat) a + S100x128.size a ≤ S100x128.size a
  h_S100x128 : 0 < S100x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  dot_S64x5000_S64x128_S5000x128_0_0_1_1_n_n_wf : DotDims.WF S64x5000 S64x128 S5000x128 [0] [0] [1] [1] [] []
  dot_S5000x128_S128x100_S5000x100_1_0_0_1_n_n_wf : DotDims.WF S5000x128 S128x100 S5000x100 [1] [0] [0] [1] [] []
  dot_S5000x100_S100x100_S5000x100_1_0_0_1_n_n_wf : DotDims.WF S5000x100 S100x100 S5000x100 [1] [0] [0] [1] [] []
  dot_S5000x100_S100x128_S5000x128_1_0_0_1_n_n_wf : DotDims.WF S5000x100 S100x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x5000.size a ≤ S80x1x5000.size a
  hwx0_0 : ∀ i : grid0.Coords, EltTy.bits .i32 = 32 ∨ (Rect.block (s := S80x1x5000) S1x1x5000.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S400000x128.size a
  hwx0_1 : ∀ i : grid0.Coords, EltTy.bits .f32 = 32 ∨ (Rect.block (s := S400000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S400000x128.size a
  hwx0_2 : ∀ i : grid0.Coords, EltTy.bits .f32 = 32 ∨ (Rect.block (s := S400000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S400000x128.size a
  hwx0_3 : ∀ i : grid0.Coords, EltTy.bits .f32 = 32 ∨ (Rect.block (s := S400000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x100.size a ≤ S512x100.size a
  hwx0_5 : ∀ i : grid0.Coords, EltTy.bits .f32 = 32 ∨ (Rect.block (s := S512x100) S512x100.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S100.size a ≤ S100.size a
  hwx0_6 : ∀ i : grid0.Coords, EltTy.bits .f32 = 32 ∨ (Rect.block (s := S100) S100.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S100x100.size a ≤ S100x100.size a
  hwx0_7 : ∀ i : grid0.Coords, EltTy.bits .f32 = 32 ∨ (Rect.block (s := S100x100) S100x100.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S100.size a ≤ S100.size a
  hwx0_8 : ∀ i : grid0.Coords, EltTy.bits .f32 = 32 ∨ (Rect.block (s := S100) S100.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S100x100.size a ≤ S100x100.size a
  hwx0_9 : ∀ i : grid0.Coords, EltTy.bits .f32 = 32 ∨ (Rect.block (s := S100x100) S100x100.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S100.size a ≤ S100.size a
  hwx0_10 : ∀ i : grid0.Coords, EltTy.bits .f32 = 32 ∨ (Rect.block (s := S100) S100.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S100x128.size a ≤ S100x128.size a
  hwx0_11 : ∀ i : grid0.Coords, EltTy.bits .f32 = 32 ∨ (Rect.block (s := S100x128) S100x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S5000x128.size a ≤ S400000x128.size a
  hwx0_15 : ∀ i : grid0.Coords, EltTy.bits .f32 = 32 ∨ (Rect.block (s := S400000x128) S5000x128.size (cc0_transform_15 i) (hinb0_15 i)).WholeWords (EltTy.packing .f32)

variable [Facts₀]

def dot_S64x5000_S64x128_S5000x128_0_0_1_1_n_n : DotDims S64x5000 S64x128 S5000x128 where
  lhsContracting := [0]
  rhsContracting := [0]
  lhsNonContracting := [1]
  rhsNonContracting := [1]
  lhsBatch := []
  rhsBatch := []
  wf := dot_S64x5000_S64x128_S5000x128_0_0_1_1_n_n_wf
def dot_S5000x128_S128x100_S5000x100_1_0_0_1_n_n : DotDims S5000x128 S128x100 S5000x100 where
  lhsContracting := [1]
  rhsContracting := [0]
  lhsNonContracting := [0]
  rhsNonContracting := [1]
  lhsBatch := []
  rhsBatch := []
  wf := dot_S5000x128_S128x100_S5000x100_1_0_0_1_n_n_wf
def dot_S5000x100_S100x100_S5000x100_1_0_0_1_n_n : DotDims S5000x100 S100x100 S5000x100 where
  lhsContracting := [1]
  rhsContracting := [0]
  lhsNonContracting := [0]
  rhsNonContracting := [1]
  lhsBatch := []
  rhsBatch := []
  wf := dot_S5000x100_S100x100_S5000x100_1_0_0_1_n_n_wf
def dot_S5000x100_S100x128_S5000x128_1_0_0_1_n_n : DotDims S5000x100 S100x128 S5000x128 where
  lhsContracting := [1]
  rhsContracting := [0]
  lhsNonContracting := [0]
  rhsNonContracting := [1]
  lhsBatch := []
  rhsBatch := []
  wf := dot_S5000x100_S100x128_S5000x128_1_0_0_1_n_n_wf

abbrev win0_0 : Pipeline.Window sig grid0 :=
  Pipeline.Window.ofSpec (Memref.whole main_v0) S1x1x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S100x100.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S100.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S100x100.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S100.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S100x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v1) S5000x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S400000x128 : Shape := ⟨2, ![400000, 128]⟩
abbrev S64x128 : Shape := ⟨2, ![64, 128]⟩
abbrev S400000 : Shape := ⟨1, ![400000]⟩
abbrev S512x100 : Shape := ⟨2, ![512, 100]⟩
abbrev S100 : Shape := ⟨1, ![100]⟩
abbrev S100x100 : Shape := ⟨2, ![100, 100]⟩
abbrev S100x128 : Shape := ⟨2, ![100, 128]⟩
abbrev S128 : Shape := ⟨1, ![128]⟩
abbrev S_ : Shape := ⟨0, ![]⟩
abbrev S400000x1 : Shape := ⟨2, ![400000, 1]⟩
abbrev S400000x512 : Shape := ⟨2, ![400000, 512]⟩
abbrev S400000x100 : Shape := ⟨2, ![400000, 100]⟩
abbrev S1x100 : Shape := ⟨2, ![1, 100]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S400000x128, .f32⟩
  | .hbm, ⟨1, _⟩ => ⟨S400000x128, .f32⟩
  | .hbm, ⟨2, _⟩ => ⟨S400000x128, .f32⟩
  | .hbm, ⟨3, _⟩ => ⟨S64x128, .f32⟩
  | .hbm, ⟨4, _⟩ => ⟨S400000, .i32⟩
  | .hbm, ⟨5, _⟩ => ⟨S512x100, .f32⟩
  | .hbm, ⟨6, _⟩ => ⟨S100, .f32⟩
  | .hbm, ⟨7, _⟩ => ⟨S100x100, .f32⟩
  | .hbm, ⟨8, _⟩ => ⟨S100, .f32⟩
  | .hbm, ⟨9, _⟩ => ⟨S100x100, .f32⟩
  | .hbm, ⟨10, _⟩ => ⟨S100, .f32⟩
  | .hbm, ⟨11, _⟩ => ⟨S100x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S_, .i32⟩
  | .hbm, ⟨16, _⟩ => ⟨S400000, .i32⟩
  | .hbm, ⟨17, _⟩ => ⟨S400000, .i1⟩
  | .hbm, ⟨18, _⟩ => ⟨S_, .i32⟩
  | .hbm, ⟨19, _⟩ => ⟨S400000, .i32⟩
  | .hbm, ⟨20, _⟩ => ⟨S400000, .i32⟩
  | .hbm, ⟨21, _⟩ => ⟨S400000, .i32⟩
  | .hbm, ⟨22, _⟩ => ⟨S400000x1, .i32⟩
  | .hbm, ⟨23, _⟩ => ⟨S400000x128, .f32⟩
  | .hbm, ⟨24, _⟩ => ⟨S400000x512, .f32⟩
  | .hbm, ⟨25, _⟩ => ⟨S400000x100, .f32⟩
  | .hbm, ⟨26, _⟩ => ⟨S1x100, .f32⟩
  | .hbm, ⟨27, _⟩ => ⟨S400000x100, .f32⟩
  | .hbm, ⟨28, _⟩ => ⟨S400000x100, .f32⟩
  | .hbm, ⟨29, _⟩ => ⟨S_, .f32⟩
  | .hbm, ⟨30, _⟩ => ⟨S400000x100, .f32⟩
  | .hbm, ⟨31, _⟩ => ⟨S400000x100, .f32⟩
  | .hbm, ⟨32, _⟩ => ⟨S400000x100, .f32⟩
  | .hbm, ⟨33, _⟩ => ⟨S1x100, .f32⟩
  | .hbm, ⟨34, _⟩ => ⟨S400000x100, .f32⟩
  | .hbm, ⟨35, _⟩ => ⟨S400000x100, .f32⟩
  | .hbm, ⟨36, _⟩ => ⟨S_, .f32⟩
  | .hbm, ⟨37, _⟩ => ⟨S400000x100, .f32⟩
  | .hbm, ⟨38, _⟩ => ⟨S400000x100, .f32⟩
  | .hbm, ⟨39, _⟩ => ⟨S400000x100, .f32⟩
  | .hbm, ⟨40, _⟩ => ⟨S1x100, .f32⟩
  | .hbm, ⟨41, _⟩ => ⟨S400000x100, .f32⟩
  | .hbm, ⟨42, _⟩ => ⟨S400000x100, .f32⟩
  | .hbm, ⟨43, _⟩ => ⟨S_, .f32⟩
  | .hbm, ⟨44, _⟩ => ⟨S400000x100, .f32⟩
  | .hbm, ⟨45, _⟩ => ⟨S400000x100, .f32⟩
  | .hbm, ⟨46, _⟩ => ⟨S400000x128, .f32⟩
  | .hbm, ⟨47, _⟩ => ⟨S1x128, .f32⟩
  | .hbm, ⟨48, _⟩ => ⟨S400000x128, .f32⟩
  | .hbm, ⟨49, _⟩ => ⟨S400000x128, .f32⟩
  | .hbm, ⟨50, _⟩ => ⟨S_, .f32⟩
  | .hbm, ⟨51, _⟩ => ⟨S400000, .f32⟩
  | .hbm, ⟨52, _⟩ => ⟨S400000x1, .f32⟩
  | .hbm, ⟨53, _⟩ => ⟨S_, .f32⟩
  | .hbm, ⟨54, _⟩ => ⟨S400000x1, .f32⟩
  | .hbm, ⟨55, _⟩ => ⟨S400000x1, .f32⟩
  | .hbm, ⟨56, _⟩ => ⟨S400000x128, .f32⟩
  | .hbm, ⟨57, _⟩ => ⟨S400000x128, .f32⟩
  | .hbm, ⟨58, _⟩ => ⟨S400000x128, .f32⟩
  | .hbm, ⟨59, _⟩ => ⟨S_, .f32⟩
  | .hbm, ⟨60, _⟩ => ⟨S400000, .f32⟩
  | .hbm, ⟨61, _⟩ => ⟨S400000x1, .f32⟩
  | .hbm, ⟨62, _⟩ => ⟨S_, .f32⟩
  | .hbm, ⟨63, _⟩ => ⟨S400000x1, .f32⟩
  | .hbm, ⟨64, _⟩ => ⟨S400000x1, .f32⟩
  | .hbm, ⟨65, _⟩ => ⟨S400000x128, .f32⟩
  | .hbm, ⟨66, _⟩ => ⟨S400000x128, .f32⟩
  | .hbm, ⟨67, _⟩ => ⟨S_, .f32⟩
  | .hbm, ⟨68, _⟩ => ⟨S400000x1, .f32⟩
  | .hbm, ⟨69, _⟩ => ⟨S400000x1, .f32⟩
  | .hbm, ⟨70, _⟩ => ⟨S400000x1, .f32⟩
  | .hbm, ⟨71, _⟩ => ⟨S400000x128, .f32⟩
  | .hbm, ⟨72, _⟩ => ⟨S400000x128, .f32⟩
  | .hbm, ⟨73, _⟩ => ⟨S1x128, .f32⟩
  | .hbm, ⟨74, _⟩ => ⟨S400000x128, .f32⟩
  | .hbm, ⟨75, _⟩ => ⟨S400000x128, .f32⟩
  | .hbm, ⟨76, _⟩ => ⟨S1x128, .f32⟩
  | .hbm, ⟨77, _⟩ => ⟨S400000x128, .f32⟩
  | .hbm, ⟨78, _⟩ => ⟨S400000x128, .f32⟩
  | .hbm, ⟨79, _⟩ => ⟨S400000x128, .f32⟩
  | _, _ => ⟨S400000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call0_cst : Ref sig .tc := ⟨.hbm, 29, rfl⟩
abbrev main_call0_v0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call1_cst : Ref sig .tc := ⟨.hbm, 36, rfl⟩
abbrev main_call1_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call2_cst : Ref sig .tc := ⟨.hbm, 43, rfl⟩
abbrev main_call2_v0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst : Ref sig .tc := ⟨.hbm, 50, rfl⟩
abbrev main_v27 : Ref sig .tc := ⟨.hbm, 51, rfl⟩
abbrev main_v28 : Ref sig .tc := ⟨.hbm, 52, rfl⟩
abbrev main_cst_1 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_2 : Ref sig .tc := ⟨.hbm, 59, rfl⟩
abbrev main_v34 : Ref sig .tc := ⟨.hbm, 60, rfl⟩
abbrev main_v35 : Ref sig .tc := ⟨.hbm, 61, rfl⟩
abbrev main_cst_3 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_4 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x128_S400000x512_d1 : Shape.Concatenates [S400000x128, S400000x128, S400000x128, S400000x128] S400000x512 1
  bcast_S100_S1x100_1 : S100.BroadcastsInDim S1x100 (![1] : Fin 1 → Fin S1x100.rank)
  bcast_S1x100_S400000x100_0_1 : S1x100.BroadcastsInDim S400000x100 (![0, 1] : Fin 2 → Fin S400000x100.rank)
  bcast_S_S400000x100 : S_.BroadcastsInDim S400000x100 (![] : Fin 0 → Fin S400000x100.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  reducesTo_S400000x128_S400000_d1 : S400000x128.ReducesTo [1] S400000
  h_S_ : 0 < S_.numel
  bcast_S_S400000x1 : S_.BroadcastsInDim S400000x1 (![] : Fin 0 → Fin S400000x1.rank)
  bcast_S400000x1_S400000x128_0_1 : S400000x1.BroadcastsInDim S400000x128 (![0, 1] : Fin 2 → Fin S400000x128.rank)
  gather_S64x128_S400000x1_S400000x128_1_0_n_n_0_1_1128_wf : GatherDims.WF S64x128 S400000x1 S400000x128 [1] [0] [] [0] [] 1 ![1, 128]
  dot_S400000x512_S512x100_S400000x100_1_0_0_1_n_n_wf : DotDims.WF S400000x512 S512x100 S400000x100 [1] [0] [0] [1] [] []
  dot_S400000x100_S100x100_S400000x100_1_0_0_1_n_n_wf : DotDims.WF S400000x100 S100x100 S400000x100 [1] [0] [0] [1] [] []
  dot_S400000x100_S100x128_S400000x128_1_0_0_1_n_n_wf : DotDims.WF S400000x100 S100x128 S400000x128 [1] [0] [0] [1] [] []

variable [Facts₀]

def gather_S64x128_S400000x1_S400000x128_1_0_n_n_0_1_1128 : GatherDims S64x128 S400000x1 S400000x128 where
  offsetDims := [1]
  collapsedSliceDims := [0]
  operandBatchingDims := []
  startIndicesBatchingDims := []
  startIndexMap := [0]
  indexVectorDim := 1
  sliceSizes := ![1, 128]
  wf := gather_S64x128_S400000x1_S400000x128_1_0_n_n_0_1_1128_wf
def dot_S400000x512_S512x100_S400000x100_1_0_0_1_n_n : DotDims S400000x512 S512x100 S400000x100 where
  lhsContracting := [1]
  rhsContracting := [0]
  lhsNonContracting := [0]
  rhsNonContracting := [1]
  lhsBatch := []
  rhsBatch := []
  wf := dot_S400000x512_S512x100_S400000x100_1_0_0_1_n_n_wf
def dot_S400000x100_S100x100_S400000x100_1_0_0_1_n_n : DotDims S400000x100 S100x100 S400000x100 where
  lhsContracting := [1]
  rhsContracting := [0]
  lhsNonContracting := [0]
  rhsNonContracting := [1]
  lhsBatch := []
  rhsBatch := []
  wf := dot_S400000x100_S100x100_S400000x100_1_0_0_1_n_n_wf
def dot_S400000x100_S100x128_S400000x128_1_0_0_1_n_n : DotDims S400000x100 S100x128 S400000x128 where
  lhsContracting := [1]
  rhsContracting := [0]
  lhsNonContracting := [0]
  rhsNonContracting := [1]
  lhsBatch := []
  rhsBatch := []
  wf := dot_S400000x100_S100x128_S400000x128_1_0_0_1_n_n_wf

class Facts : Prop extends Facts₀ where

variable [Facts]
-- ==== Proof.EdgeRow.lean ====
/-
  The edge model on ONE edge, over the extended reals.

  An edge's output row depends only on that edge's own rows of `src`, `dest` and `edge_attr`, on the row of the
  graph table `u` its graph id selects, and on the shared weights: a 512-wide input row (the four 128-wide rows side by
  side) through three rectified dense layers of width 100 and a fourth of width 128, a layer normalisation over the
  128 lanes (mean and variance as sums divided by 128, the reciprocal square root of the variance plus a constant,
  then scale and shift), and the edge's `edge_attr` row added back. `row` is that function, with the first layer
  written as the sum of its four 128-wide partial products; `result` is the whole output array, row by row.

  Two facts about sums that join the two programs to it: a sum weighted by the indicator of one index is the
  term at that index (`sum_indicator`), and a sum over 512 terms is the sum of its four consecutive 128-term
  stretches (`sum_four`).
-/
import Idealize.ShloMosaic.PureOps.Ideal
import Idealize.ShloMosaic.Lib.ValueIdx

noncomputable section

open scoped BigOperators

namespace Cert.EdgeRow

open Idealize.ShloMosaic Idealize.ShloMosaic.ValueIdx

/-- A dense layer on a row: `x · W + b`. -/
def dense {n m : ℕ} (x : Fin n → EReal) (W : Fin n → Fin m → EReal) (b : Fin m → EReal) : Fin m → EReal :=
  fun j => (∑ k, x k * W k j) + b j

/-- The rectifier, lane by lane: the maximum with the value of the zero word. -/
def relu {m : ℕ} (x : Fin m → EReal) : Fin m → EReal :=
  fun j => max (x j) (Ideal.ofBits .f32 0x00000000#32)

/-- The first layer: the four 128-wide rows against the four consecutive 128-row stretches of `W`, summed in the
    order source, destination, attribute, graph row, then the bias. -/
def first (s d a g : Fin 128 → EReal) (W : Fin 512 → Fin 100 → EReal) (b : Fin 100 → EReal) : Fin 100 → EReal :=
  fun j => ((((∑ k : Fin 128, s k * W ⟨k.val, by have := k.isLt; omega⟩ j)
      + (∑ k : Fin 128, d k * W ⟨128 + k.val, by have := k.isLt; omega⟩ j))
      + (∑ k : Fin 128, a k * W ⟨256 + k.val, by have := k.isLt; omega⟩ j))
      + (∑ k : Fin 128, g k * W ⟨384 + k.val, by have := k.isLt; omega⟩ j)) + b j

/-- The mean of 128 lanes: their sum divided by the value of the word for 128. -/
def mean128 (x : Fin 128 → EReal) : EReal :=
  Ideal.div (∑ k, x k) (Ideal.ofBits .f32 0x43000000#32)

/-- Layer normalisation of a 128-lane row: `(x − μ) · rsqrt (σ² + ε) · γ + β`, with `μ` the mean, `σ²` the mean of
    the squared deviations and `ε` the value of the word `0x3727C5AC`. -/
def norm (x γ β : Fin 128 → EReal) : Fin 128 → EReal := fun q =>
  ((x q - mean128 x) * Ideal.rsqrt (mean128 (fun k => (x k - mean128 x) * (x k - mean128 x))
      + Ideal.ofBits .f32 0x3727C5AC#32)) * γ q + β q

/-- One edge's output row from its attribute row `a`, source row `s`, destination row `d` and graph row `g`. -/
def row (a s d g : Fin 128 → EReal) (W1 : Fin 512 → Fin 100 → EReal) (b1 : Fin 100 → EReal)
    (W2 : Fin 100 → Fin 100 → EReal) (b2 : Fin 100 → EReal) (W3 : Fin 100 → Fin 100 → EReal) (b3 : Fin 100 → EReal)
    (W4 : Fin 100 → Fin 128 → EReal) (b4 γ β : Fin 128 → EReal) : Fin 128 → EReal :=
  fun q => a q + norm (dense (relu (dense (relu (dense (relu (first s d a g W1 b1)) W2 b2)) W3 b3)) W4 b4) γ β q

/-- The table row a graph id names, for an id in range: the id itself (taken modulo 64 so that the row is
    defined for every word). -/
def tableRow (b : BitVec 32) : Fin 64 := ⟨b.toNat % 64, Nat.mod_lt _ (by decide)⟩

theorem tableRow_val {b : BitVec 32} (h : b.toNat < 64) : (tableRow b).val = b.toNat := Nat.mod_eq_of_lt h

/-- The output at edge `e`, lane `q`, from the whole argument arrays. -/
def resultAt (src dst ea : (⟨2, ![400000, 128]⟩ : Shape).Idx → EReal) (u : (⟨2, ![64, 128]⟩ : Shape).Idx → EReal)
    (batch : (⟨1, ![400000]⟩ : Shape).Idx → BitVec 32) (W1 : (⟨2, ![512, 100]⟩ : Shape).Idx → EReal)
    (b1 : (⟨1, ![100]⟩ : Shape).Idx → EReal) (W2 : (⟨2, ![100, 100]⟩ : Shape).Idx → EReal)
    (b2 : (⟨1, ![100]⟩ : Shape).Idx → EReal) (W3 : (⟨2, ![100, 100]⟩ : Shape).Idx → EReal)
    (b3 : (⟨1, ![100]⟩ : Shape).Idx → EReal) (W4 : (⟨2, ![100, 128]⟩ : Shape).Idx → EReal)
    (b4 γ β : (⟨1, ![128]⟩ : Shape).Idx → EReal) (e : Fin 400000) (q : Fin 128) : EReal :=
  row (fun k => ea (ix2 e k)) (fun k => src (ix2 e k)) (fun k => dst (ix2 e k))
    (fun k => u (ix2 (tableRow (batch (ix1 e))) k)) (fun k j => W1 (ix2 k j)) (fun j => b1 (ix1 j))
    (fun k j => W2 (ix2 k j)) (fun j => b2 (ix1 j)) (fun k j => W3 (ix2 k j)) (fun j => b3 (ix1 j))
    (fun k j => W4 (ix2 k j)) (fun j => b4 (ix1 j)) (fun j => γ (ix1 j)) (fun j => β (ix1 j)) q

/-- The whole output array. -/
def result (src dst ea : (⟨2, ![400000, 128]⟩ : Shape).Idx → EReal) (u : (⟨2, ![64, 128]⟩ : Shape).Idx → EReal)
    (batch : (⟨1, ![400000]⟩ : Shape).Idx → BitVec 32) (W1 : (⟨2, ![512, 100]⟩ : Shape).Idx → EReal)
    (b1 : (⟨1, ![100]⟩ : Shape).Idx → EReal) (W2 : (⟨2, ![100, 100]⟩ : Shape).Idx → EReal)
    (b2 : (⟨1, ![100]⟩ : Shape).Idx → EReal) (W3 : (⟨2, ![100, 100]⟩ : Shape).Idx → EReal)
    (b3 : (⟨1, ![100]⟩ : Shape).Idx → EReal) (W4 : (⟨2, ![100, 128]⟩ : Shape).Idx → EReal)
    (b4 γ β : (⟨1, ![128]⟩ : Shape).Idx → EReal) : (⟨2, ![400000, 128]⟩ : Shape).Idx → EReal :=
  fun i => resultAt src dst ea u batch W1 b1 W2 b2 W3 b3 W4 b4 γ β (i 0) (i 1)

/-- A sum weighted by the indicator of one index is the term at that index. -/
theorem sum_indicator {n : ℕ} (g0 : Fin n) (w f : Fin n → EReal) (h1 : w g0 = 1) (h0 : ∀ g, g ≠ g0 → w g = 0) :
    ∑ g, w g * f g = f g0 := by
  rw [Finset.sum_eq_single g0 (fun g _ hg => by rw [h0 g hg, zero_mul])
    (fun h => absurd (Finset.mem_univ g0) h), h1, one_mul]

/-- A sum over 512 terms is the sum of its four consecutive 128-term stretches, grouped from the left. -/
theorem sum_four (f : Fin 512 → EReal) :
    ∑ k, f k = (((∑ k : Fin 128, f ⟨k.val, by have := k.isLt; omega⟩)
      + (∑ k : Fin 128, f ⟨128 + k.val, by have := k.isLt; omega⟩))
      + (∑ k : Fin 128, f ⟨256 + k.val, by have := k.isLt; omega⟩))
      + (∑ k : Fin 128, f ⟨384 + k.val, by have := k.isLt; omega⟩) := by
  have h1 := Fin.sum_univ_add (a := 384) (b := 128) f
  have h2 := Fin.sum_univ_add (a := 256) (b := 128) (fun i => f (Fin.castAdd 128 i))
  have h3 := Fin.sum_univ_add (a := 128) (b := 128) (fun i => f (Fin.castAdd 128 (Fin.castAdd 128 i)))
  rw [h1, h2, h3]
  rfl

end Cert.EdgeRow

end
-- ==== Proof.BatchRange.lean ====
/-
  The precondition's range conjunct, decoded. The last conjunct of `Cert.Pre_finite_inputs.fn` is
  `jnp.all((batch >= 0) & (batch < 64))`: an `and`-reduction, from the constant 1, of the one-bit array whose entry at
  e is the conjunction of the signed comparisons 0 ≤ batch[e] and batch[e] < 64. When the whole predicate is 1, that
  reduction is 1, so every entry of the array is 1, so both comparisons hold at every e; a 32-bit word that is, read
  signed, at least 0 and below 64 is below 64 read unsigned.
-/
import proofs.«420650_j49546742726707_3_alg».proof.Pre_finite_inputs
import Idealize.ShloMosaic.Lib.ReduceAll
import Idealize.ShloMosaic.Lib.ValueIdx

noncomputable section

namespace Cert.BatchRange

open Idealize.ShloMosaic Idealize.ShloMosaic.ValueIdx
open Cert.Pre_finite_inputs

/-- The scalar shape has one index. -/
instance : Subsingleton S_.Idx := ⟨fun a b => funext fun d => d.elim0⟩

/-- A 32-bit word w with 0 ≤ w and w < 64 as signed integers is below 64 as a natural number: were its top bit set,
    its signed reading w.toNat − 2³² would be negative. -/
theorem toNat_lt_64 (w : BitVec 32) (h0 : IntOp.cmpi .sge w 0#32 = 1#1) (h1 : IntOp.cmpi .slt w 64#32 = 1#1) :
    w.toNat < 64 := by
  have a0 : (0#32).toInt ≤ w.toInt := IntOp.cmpi_sge.1 h0
  have a1 : w.toInt < (64#32).toInt := IntOp.cmpi_slt.1 h1
  have z : (0#32).toInt = 0 := by decide
  have s : (64#32).toInt = 64 := by decide
  have c := BitVec.toInt_eq_toNat_cond w
  have b := w.isLt
  omega

/-- THE RANGE CONJUNCT DECODED at entry e: batch[e] < 64 as a natural number. -/
theorem batch_lt {F : FTy → Type} [FloatOps F] [Cert.Pre_finite_inputs.Facts]
    (x0 x1 x2 : FVec F S400000x128 .f32) (x3 : FVec F S64x128 .f32) (x4 : IVec S400000 32)
    (x5 : FVec F S512x100 .f32) (x6 : FVec F S100 .f32) (x7 : FVec F S100x100 .f32) (x8 : FVec F S100 .f32)
    (x9 : FVec F S100x100 .f32) (x10 : FVec F S100 .f32) (x11 : FVec F S100x128 .f32) (x12 x13 x14 : FVec F S128 .f32)
    (h : Cert.Pre_finite_inputs.fn (F := F) x0 x1 x2 x3 x4 x5 x6 x7 x8 x9 x10 x11 x12 x13 x14 = fun _ => 1#1)
    (e : Fin 400000) : (x4 (Idealize.ShloMosaic.ValueIdx.ix1 e)).toNat < 64 := by
  -- the predicate at the scalar shape's one index
  have p := congrFun h ix0
  dsimp only [fn, fn_part1, fn_part2, fn_part3, fn_part4] at p
  -- the outermost conjunction: its right operand is the range conjunct's reduction
  have r := (IntOp.andi_eq_one.1 p).2
  -- a reduction by `and` that is 1 met a 1 at every entry
  have q := Host.reduce_andi_all _ _ _ _ ix0 r (ix1 e)
  -- the entry at e is the conjunction of the two comparisons of batch[e], against 0 and against 64
  obtain ⟨q0, q1⟩ := IntOp.andi_eq_one.1 q
  exact toNat_lt_64 (x4 (ix1 e)) q0 q1

end Cert.BatchRange

end
-- ==== Proof.KerDots.lean ====
/-
  The kernel's four matrix products read at one element, over the extended reals: each, into a zero accumulator,
  is at row `p` and column `j` the plain sum over the contracted coordinate of the products of the two
  operands' entries. The graph-row product contracts the FIRST axis of both operands (a [64, 5000] indicator
  against the [64, 128] table); the other three contract the left operand's columns against the right operand's rows.
  For each product: where the operand indices sit, axis by axis, and then the sum re-indexed by the one contracted
  coordinate.
-/
import proofs.«420650_j49546742726707_3_alg».proof.Proof.Gen.KernelIdeal
import Idealize.ShloMosaic.Lib.ValueIdx
import Idealize.ShloMosaic.PureOps.Ideal.Laws

noncomputable section

open scoped BigOperators

namespace Cert.KernelIdeal.KerDots

open Cert.KernelIdeal Cert.KernelIdeal.Gen Idealize.ShloMosaic Idealize.ShloMosaic.ValueIdx

/-! ## The indicator [64, 5000] against the table [64, 128], contracting the 64 graph rows -/

theorem lG_0 (i : S5000x128.Idx) (q : dot_S64x5000_S64x128_S5000x128_0_0_1_1_n_n.contr.Idx) :
    (dot_S64x5000_S64x128_S5000x128_0_0_1_1_n_n.lhsIdx i q 0).val = (q ⟨0, by decide⟩).val :=
  dot_S64x5000_S64x128_S5000x128_0_0_1_1_n_n.lhsIdx_val_of_single rfl i q
theorem lG_1 (i : S5000x128.Idx) (q : dot_S64x5000_S64x128_S5000x128_0_0_1_1_n_n.contr.Idx) :
    (dot_S64x5000_S64x128_S5000x128_0_0_1_1_n_n.lhsIdx i q 1).val = (i 0).val := by
  unfold DotDims.lhsIdx
  rw [dif_neg (show ¬(1 : Fin S64x5000.rank) ∈ dot_S64x5000_S64x128_S5000x128_0_0_1_1_n_n.lhsBatch by decide), dif_pos (show (1 : Fin S64x5000.rank) ∈ dot_S64x5000_S64x128_S5000x128_0_0_1_1_n_n.lhsNonContracting by decide)]
  rfl
theorem rG_0 (i : S5000x128.Idx) (q : dot_S64x5000_S64x128_S5000x128_0_0_1_1_n_n.contr.Idx) :
    (dot_S64x5000_S64x128_S5000x128_0_0_1_1_n_n.rhsIdx i q 0).val = (q ⟨0, by decide⟩).val :=
  dot_S64x5000_S64x128_S5000x128_0_0_1_1_n_n.rhsIdx_val_of_single rfl i q
theorem rG_1 (i : S5000x128.Idx) (q : dot_S64x5000_S64x128_S5000x128_0_0_1_1_n_n.contr.Idx) :
    (dot_S64x5000_S64x128_S5000x128_0_0_1_1_n_n.rhsIdx i q 1).val = (i 1).val := by
  unfold DotDims.rhsIdx
  rw [dif_neg (show ¬(1 : Fin S64x128.rank) ∈ dot_S64x5000_S64x128_S5000x128_0_0_1_1_n_n.rhsBatch by decide), dif_pos (show (1 : Fin S64x128.rank) ∈ dot_S64x5000_S64x128_S5000x128_0_0_1_1_n_n.rhsNonContracting by decide)]
  rfl

/-- Row `p`, column `j` of the graph-row product: the sum over the 64 table rows `g` of the indicator at `(g, p)`
    times the table at `(g, j)`. -/
theorem mmG (l : FVec Ideal S64x5000 .bf16) (r : FVec Ideal S64x128 .bf16) (p : Fin 5000) (j : Fin 128) :
    matmul dot_S64x5000_S64x128_S5000x128_0_0_1_1_n_n none l r (constant S5000x128 .f32 0x00000000#32) (ix2 p j)
      = ∑ k : Fin 64, l (ix2 k p) * r (ix2 k j) := by
  simp only [matmul]
  rw [Ideal.matmul_constant_zero_apply, ← Equiv.sum_comp (contrEquiv1 dot_S64x5000_S64x128_S5000x128_0_0_1_1_n_n 64 rfl rfl).symm]
  refine Finset.sum_congr rfl fun k _ => ?_
  have hk := contrEquiv1_symm_val dot_S64x5000_S64x128_S5000x128_0_0_1_1_n_n 64 rfl rfl k
  have el : dot_S64x5000_S64x128_S5000x128_0_0_1_1_n_n.lhsIdx (ix2 p j) ((contrEquiv1 dot_S64x5000_S64x128_S5000x128_0_0_1_1_n_n 64 rfl rfl).symm k) = ix2 k p := funext fun a => Fin.ext (by
    match a with
    | ⟨0, _⟩ => exact (lG_0 _ _).trans hk
    | ⟨1, _⟩ => exact lG_1 _ _)
  have er : dot_S64x5000_S64x128_S5000x128_0_0_1_1_n_n.rhsIdx (ix2 p j) ((contrEquiv1 dot_S64x5000_S64x128_S5000x128_0_0_1_1_n_n 64 rfl rfl).symm k) = ix2 k j := funext fun a => Fin.ext (by
    match a with
    | ⟨0, _⟩ => exact (rG_0 _ _).trans hk
    | ⟨1, _⟩ => exact rG_1 _ _)
  rw [el, er]

/-! ## A [5000, 128] block against a [128, 100] stretch of the first layer's weights -/

theorem lA_0 (i : S5000x100.Idx) (q : dot_S5000x128_S128x100_S5000x100_1_0_0_1_n_n.contr.Idx) :
    (dot_S5000x128_S128x100_S5000x100_1_0_0_1_n_n.lhsIdx i q 0).val = (i 0).val := by
  unfold DotDims.lhsIdx
  rw [dif_neg (show ¬(0 : Fin S5000x128.rank) ∈ dot_S5000x128_S128x100_S5000x100_1_0_0_1_n_n.lhsBatch by decide), dif_pos (show (0 : Fin S5000x128.rank) ∈ dot_S5000x128_S128x100_S5000x100_1_0_0_1_n_n.lhsNonContracting by decide)]
  rfl
theorem lA_1 (i : S5000x100.Idx) (q : dot_S5000x128_S128x100_S5000x100_1_0_0_1_n_n.contr.Idx) :
    (dot_S5000x128_S128x100_S5000x100_1_0_0_1_n_n.lhsIdx i q 1).val = (q ⟨0, by decide⟩).val :=
  dot_S5000x128_S128x100_S5000x100_1_0_0_1_n_n.lhsIdx_val_of_single rfl i q
theorem rA_0 (i : S5000x100.Idx) (q : dot_S5000x128_S128x100_S5000x100_1_0_0_1_n_n.contr.Idx) :
    (dot_S5000x128_S128x100_S5000x100_1_0_0_1_n_n.rhsIdx i q 0).val = (q ⟨0, by decide⟩).val :=
  dot_S5000x128_S128x100_S5000x100_1_0_0_1_n_n.rhsIdx_val_of_single rfl i q
theorem rA_1 (i : S5000x100.Idx) (q : dot_S5000x128_S128x100_S5000x100_1_0_0_1_n_n.contr.Idx) :
    (dot_S5000x128_S128x100_S5000x100_1_0_0_1_n_n.rhsIdx i q 1).val = (i 1).val := by
  unfold DotDims.rhsIdx
  rw [dif_neg (show ¬(1 : Fin S128x100.rank) ∈ dot_S5000x128_S128x100_S5000x100_1_0_0_1_n_n.rhsBatch by decide), dif_pos (show (1 : Fin S128x100.rank) ∈ dot_S5000x128_S128x100_S5000x100_1_0_0_1_n_n.rhsNonContracting by decide)]
  rfl

/-- Row `p`, column `j` of a first-layer partial product: the sum over the 128 lanes `k` of the block at
    `(p, k)` times the weight stretch at `(k, j)`. -/
theorem mmA (l : FVec Ideal S5000x128 .bf16) (r : FVec Ideal S128x100 .bf16) (p : Fin 5000) (j : Fin 100) :
    matmul dot_S5000x128_S128x100_S5000x100_1_0_0_1_n_n none l r (constant S5000x100 .f32 0x00000000#32) (ix2 p j)
      = ∑ k : Fin 128, l (ix2 p k) * r (ix2 k j) := by
  simp only [matmul]
  rw [Ideal.matmul_constant_zero_apply, ← Equiv.sum_comp (contrEquiv1 dot_S5000x128_S128x100_S5000x100_1_0_0_1_n_n 128 rfl rfl).symm]
  refine Finset.sum_congr rfl fun k _ => ?_
  have hk := contrEquiv1_symm_val dot_S5000x128_S128x100_S5000x100_1_0_0_1_n_n 128 rfl rfl k
  have el : dot_S5000x128_S128x100_S5000x100_1_0_0_1_n_n.lhsIdx (ix2 p j) ((contrEquiv1 dot_S5000x128_S128x100_S5000x100_1_0_0_1_n_n 128 rfl rfl).symm k) = ix2 p k := funext fun a => Fin.ext (by
    match a with
    | ⟨0, _⟩ => exact lA_0 _ _
    | ⟨1, _⟩ => exact (lA_1 _ _).trans hk)
  have er : dot_S5000x128_S128x100_S5000x100_1_0_0_1_n_n.rhsIdx (ix2 p j) ((contrEquiv1 dot_S5000x128_S128x100_S5000x100_1_0_0_1_n_n 128 rfl rfl).symm k) = ix2 k j := funext fun a => Fin.ext (by
    match a with
    | ⟨0, _⟩ => exact (rA_0 _ _).trans hk
    | ⟨1, _⟩ => exact rA_1 _ _)
  rw [el, er]

/-! ## A [5000, 100] activation against a [100, 100] weight -/

theorem lB_0 (i : S5000x100.Idx) (q : dot_S5000x100_S100x100_S5000x100_1_0_0_1_n_n.contr.Idx) :
    (dot_S5000x100_S100x100_S5000x100_1_0_0_1_n_n.lhsIdx i q 0).val = (i 0).val := by
  unfold DotDims.lhsIdx
  rw [dif_neg (show ¬(0 : Fin S5000x100.rank) ∈ dot_S5000x100_S100x100_S5000x100_1_0_0_1_n_n.lhsBatch by decide), dif_pos (show (0 : Fin S5000x100.rank) ∈ dot_S5000x100_S100x100_S5000x100_1_0_0_1_n_n.lhsNonContracting by decide)]
  rfl
theorem lB_1 (i : S5000x100.Idx) (q : dot_S5000x100_S100x100_S5000x100_1_0_0_1_n_n.contr.Idx) :
    (dot_S5000x100_S100x100_S5000x100_1_0_0_1_n_n.lhsIdx i q 1).val = (q ⟨0, by decide⟩).val :=
  dot_S5000x100_S100x100_S5000x100_1_0_0_1_n_n.lhsIdx_val_of_single rfl i q
theorem rB_0 (i : S5000x100.Idx) (q : dot_S5000x100_S100x100_S5000x100_1_0_0_1_n_n.contr.Idx) :
    (dot_S5000x100_S100x100_S5000x100_1_0_0_1_n_n.rhsIdx i q 0).val = (q ⟨0, by decide⟩).val :=
  dot_S5000x100_S100x100_S5000x100_1_0_0_1_n_n.rhsIdx_val_of_single rfl i q
theorem rB_1 (i : S5000x100.Idx) (q : dot_S5000x100_S100x100_S5000x100_1_0_0_1_n_n.contr.Idx) :
    (dot_S5000x100_S100x100_S5000x100_1_0_0_1_n_n.rhsIdx i q 1).val = (i 1).val := by
  unfold DotDims.rhsIdx
  rw [dif_neg (show ¬(1 : Fin S100x100.rank) ∈ dot_S5000x100_S100x100_S5000x100_1_0_0_1_n_n.rhsBatch by decide), dif_pos (show (1 : Fin S100x100.rank) ∈ dot_S5000x100_S100x100_S5000x100_1_0_0_1_n_n.rhsNonContracting by decide)]
  rfl

/-- Row `p`, column `j` of a hidden layer's product: the sum over the 100 lanes `k` of the activation at
    `(p, k)` times the weight at `(k, j)`. -/
theorem mmB (l : FVec Ideal S5000x100 .bf16) (r : FVec Ideal S100x100 .bf16) (p : Fin 5000) (j : Fin 100) :
    matmul dot_S5000x100_S100x100_S5000x100_1_0_0_1_n_n none l r (constant S5000x100 .f32 0x00000000#32) (ix2 p j)
      = ∑ k : Fin 100, l (ix2 p k) * r (ix2 k j) := by
  simp only [matmul]
  rw [Ideal.matmul_constant_zero_apply, ← Equiv.sum_comp (contrEquiv1 dot_S5000x100_S100x100_S5000x100_1_0_0_1_n_n 100 rfl rfl).symm]
  refine Finset.sum_congr rfl fun k _ => ?_
  have hk := contrEquiv1_symm_val dot_S5000x100_S100x100_S5000x100_1_0_0_1_n_n 100 rfl rfl k
  have el : dot_S5000x100_S100x100_S5000x100_1_0_0_1_n_n.lhsIdx (ix2 p j) ((contrEquiv1 dot_S5000x100_S100x100_S5000x100_1_0_0_1_n_n 100 rfl rfl).symm k) = ix2 p k := funext fun a => Fin.ext (by
    match a with
    | ⟨0, _⟩ => exact lB_0 _ _
    | ⟨1, _⟩ => exact (lB_1 _ _).trans hk)
  have er : dot_S5000x100_S100x100_S5000x100_1_0_0_1_n_n.rhsIdx (ix2 p j) ((contrEquiv1 dot_S5000x100_S100x100_S5000x100_1_0_0_1_n_n 100 rfl rfl).symm k) = ix2 k j := funext fun a => Fin.ext (by
    match a with
    | ⟨0, _⟩ => exact (rB_0 _ _).trans hk
    | ⟨1, _⟩ => exact rB_1 _ _)
  rw [el, er]

/-! ## A [5000, 100] activation against the [100, 128] weight -/

theorem lC_0 (i : S5000x128.Idx) (q : dot_S5000x100_S100x128_S5000x128_1_0_0_1_n_n.contr.Idx) :
    (dot_S5000x100_S100x128_S5000x128_1_0_0_1_n_n.lhsIdx i q 0).val = (i 0).val := by
  unfold DotDims.lhsIdx
  rw [dif_neg (show ¬(0 : Fin S5000x100.rank) ∈ dot_S5000x100_S100x128_S5000x128_1_0_0_1_n_n.lhsBatch by decide), dif_pos (show (0 : Fin S5000x100.rank) ∈ dot_S5000x100_S100x128_S5000x128_1_0_0_1_n_n.lhsNonContracting by decide)]
  rfl
theorem lC_1 (i : S5000x128.Idx) (q : dot_S5000x100_S100x128_S5000x128_1_0_0_1_n_n.contr.Idx) :
    (dot_S5000x100_S100x128_S5000x128_1_0_0_1_n_n.lhsIdx i q 1).val = (q ⟨0, by decide⟩).val :=
  dot_S5000x100_S100x128_S5000x128_1_0_0_1_n_n.lhsIdx_val_of_single rfl i q
theorem rC_0 (i : S5000x128.Idx) (q : dot_S5000x100_S100x128_S5000x128_1_0_0_1_n_n.contr.Idx) :
    (dot_S5000x100_S100x128_S5000x128_1_0_0_1_n_n.rhsIdx i q 0).val = (q ⟨0, by decide⟩).val :=
  dot_S5000x100_S100x128_S5000x128_1_0_0_1_n_n.rhsIdx_val_of_single rfl i q
theorem rC_1 (i : S5000x128.Idx) (q : dot_S5000x100_S100x128_S5000x128_1_0_0_1_n_n.contr.Idx) :
    (dot_S5000x100_S100x128_S5000x128_1_0_0_1_n_n.rhsIdx i q 1).val = (i 1).val := by
  unfold DotDims.rhsIdx
  rw [dif_neg (show ¬(1 : Fin S100x128.rank) ∈ dot_S5000x100_S100x128_S5000x128_1_0_0_1_n_n.rhsBatch by decide), dif_pos (show (1 : Fin S100x128.rank) ∈ dot_S5000x100_S100x128_S5000x128_1_0_0_1_n_n.rhsNonContracting by decide)]
  rfl

/-- Row `p`, column `j` of the last layer's product: the sum over the 100 lanes `k` of the activation at
    `(p, k)` times the weight at `(k, j)`. -/
theorem mmC (l : FVec Ideal S5000x100 .bf16) (r : FVec Ideal S100x128 .bf16) (p : Fin 5000) (j : Fin 128) :
    matmul dot_S5000x100_S100x128_S5000x128_1_0_0_1_n_n none l r (constant S5000x128 .f32 0x00000000#32) (ix2 p j)
      = ∑ k : Fin 100, l (ix2 p k) * r (ix2 k j) := by
  simp only [matmul]
  rw [Ideal.matmul_constant_zero_apply, ← Equiv.sum_comp (contrEquiv1 dot_S5000x100_S100x128_S5000x128_1_0_0_1_n_n 100 rfl rfl).symm]
  refine Finset.sum_congr rfl fun k _ => ?_
  have hk := contrEquiv1_symm_val dot_S5000x100_S100x128_S5000x128_1_0_0_1_n_n 100 rfl rfl k
  have el : dot_S5000x100_S100x128_S5000x128_1_0_0_1_n_n.lhsIdx (ix2 p j) ((contrEquiv1 dot_S5000x100_S100x128_S5000x128_1_0_0_1_n_n 100 rfl rfl).symm k) = ix2 p k := funext fun a => Fin.ext (by
    match a with
    | ⟨0, _⟩ => exact lC_0 _ _
    | ⟨1, _⟩ => exact (lC_1 _ _).trans hk)
  have er : dot_S5000x100_S100x128_S5000x128_1_0_0_1_n_n.rhsIdx (ix2 p j) ((contrEquiv1 dot_S5000x100_S100x128_S5000x128_1_0_0_1_n_n 100 rfl rfl).symm k) = ix2 k j := funext fun a => Fin.ext (by
    match a with
    | ⟨0, _⟩ => exact (rC_0 _ _).trans hk
    | ⟨1, _⟩ => exact rC_1 _ _)
  rw [el, er]

end Cert.KernelIdeal.KerDots

end
-- ==== Proof.LibColumn.lean ====
/-
  Column vectors and one-axis reductions of a matrix, read at an index given by coordinates.

  A reduction of an `[a, b]` matrix with `keepdims` goes through three layout steps the library reads only in their
  row forms: the reduced `[a]` vector is cast to the column `[a, 1]`, and the column is broadcast back over
  `[a, b]`. Here those two are read at `(r, c)`, together with the reductions themselves at the ideal instance:
  the sum of a matrix along its columns or its rows as a `Fin`-indexed sum over `ix2`, and the maximum along the
  columns as the fold of `max` over the row — for the vector unit's reduction and for the host's alike.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

/-! ## The layout steps of a keepdims reduction -/

section Layout
variable {α : Type}

/-- An `[a]` vector cast to the column `[a, 1]` reads, at `(r, u)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## Which source index a reduced index and a coordinate name -/

/-- Reducing `[a, b]` along axis 1: over row `r`, coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing `[a, b]` along axis 0: over column `t`, coordinate `k` put back is `(k, t)`. -/
theorem lift_axis0 {a b : ℕ} (h : (⟨2, ![a, b]⟩ : Shape).Reduces [0] (⟨1, ![b]⟩ : Shape)) (t : Fin b)
    (k : Fin ((⟨2, ![a, b]⟩ : Shape).size 0)) : h.lift (ix1 t) k = ix2 (⟨k.val, k.isLt⟩ : Fin a) t := by
  funext c; apply Fin.ext
  fin_cases c <;> rfl

/-! ## The reductions at the ideal instance -/

section Reductions
variable {φ : FTy}

/-- The vector unit's sum of a matrix along its columns is, at row `r`, the sum of that row. -/
theorem sumAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ v acc h hφ hacc (ix1 r) = ∑ k : Fin b, v (ix2 r k) :=
  (Ideal.multiReduction_add_single v acc h hφ hacc (ix1 r)).trans
    (Finset.sum_congr rfl fun k _ => congrArg v (lift_axis1 h r k))

/-- The vector unit's sum of a matrix along its rows is, at column `t`, the sum of that column. -/
theorem sumAxis0_apply {a b : ℕ} (v : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (t : Fin b) :
    multiReduction .add [0] ⟨1, ![b]⟩ v acc h hφ hacc (ix1 t) = ∑ k : Fin a, v (ix2 k t) :=
  (Ideal.multiReduction_add_single v acc h hφ hacc (ix1 t)).trans
    (Finset.sum_congr rfl fun k _ => congrArg v (lift_axis0 h t k))

/-- The vector unit's maximum of a matrix along its columns is, at row `r`, the fold of `max` over that row from
    the accumulator's value. -/
theorem maxAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ v acc h hφ hacc (ix1 r)
      = (Finset.univ : Finset (Fin b)).fold max (Ideal.ofBits φ acc) (fun k => v (ix2 r k)) :=
  (Ideal.multiReduction_maximumf_single v acc h hφ hacc (ix1 r)).trans
    (congrArg (fun f => (Finset.univ : Finset (Fin b)).fold max (Ideal.ofBits φ acc) f)
      (funext fun k => congrArg v (lift_axis1 h r k)))

/-- The host's reduce with a maximum body along the columns is, at row `r`, the same fold from the initial value. -/
theorem hostMaxAxis1_apply {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) :=
  (Host.reduce_eq_fold_single FloatOps.maximumf x init h' h hu (ix1 r)).trans
    (congrArg (fun f => (Finset.univ : Finset (Fin b)).fold max (init (Shape.Idx.first hu)) f)
      (funext fun k => congrArg x (lift_axis1 h r k)))

end Reductions

end Cert.LibColumn

end
-- ==== Proof.KerRow.lean ====
/-
  The kernel's body on one row of its blocks, over the extended reals.

  Row `p` of the block a grid point writes depends only on row `p` of the three streamed blocks, on the graph id
  at position `p` of the id block, and on the resident table and weights: it is `EdgeRow.row` of those. The graph
  row enters through a product with an indicator: entry `(g, p)` of the indicator is one when the id at `p` is
  `g` and zero otherwise, so the sum over the 64 table rows keeps the row the id names (for an id below 64).
-/
import proofs.«420650_j49546742726707_3_alg».proof.Proof.Gen.KernelIdeal.Value
import proofs.«420650_j49546742726707_3_alg».proof.Proof.KerDots
import proofs.«420650_j49546742726707_3_alg».proof.Proof.EdgeRow
import proofs.«420650_j49546742726707_3_alg».proof.Proof.LibColumn
import Idealize.ShloMosaic.Lib.ValueLayout
import Idealize.ShloMosaic.Lib.Pipeline.Value
import Idealize.ShloMosaic.Lib.StableHlo.Predicate

noncomputable section

open scoped BigOperators

namespace Cert.KernelIdeal.KerRow

open Cert.KernelIdeal Cert.KernelIdeal.Gen Cert.KernelIdeal.KerDots Idealize.ShloMosaic Idealize.ShloMosaic.ValueIdx Cert.EdgeRow

/-! ## Bias rows -/

/-- A 100-lane bias, as one row broadcast down a [5000, 100] block, reads its lane. -/
theorem bias100_apply (b : Vec Ideal S100 .f32) (p : Fin 5000) (j : Fin 100) :
    broadcastTo S5000x100 (shapeCast S1x100 b shapeCasts_S100_S1x100) broadcasts_S1x100_S5000x100 (ix2 p j) = b (ix1 j) :=
  (broadcastTo_1b_ab_apply _ _ p j).trans (shapeCast_a_1a_apply b _ 0 j)

/-- A 128-lane bias, as one row broadcast down a [5000, 128] block, reads its lane. -/
theorem bias128_apply (b : Vec Ideal S128 .f32) (p : Fin 5000) (j : Fin 128) :
    broadcastTo S5000x128 (shapeCast S1x128 b shapeCasts_S128_S1x128) broadcasts_S1x128_S5000x128 (ix2 p j) = b (ix1 j) :=
  (broadcastTo_1b_ab_apply _ _ p j).trans (shapeCast_a_1a_apply b _ 0 j)

/-! ## The indicator and the graph row -/

/-- The indicator of "the id at position `p` is `g`", as the kernel builds it: the comparison's bit widened and
    converted. -/
abbrev indicator (v0 : Vec Ideal S1x1x5000 .i32) : FVec Ideal S64x5000 .bf16 :=
  truncf .bf16 (sitofp .f32 (extui 32 (cmpi .eq (broadcastTo S64x5000 (shapeCast S1x5000 v0 shapeCasts_S1x1x5000_S1x5000) broadcasts_S1x5000_S64x5000) (iota .tc S64x5000 32 [0] iota_S64x5000_d0_w32)) natLt_1_32)) bitsLt_bf16_f32

/-- Entry `(g, p)` of the indicator is the comparison bit of the id at `p` against the word for `g`, widened and
    read as a real. -/
theorem indicator_apply (v0 : Vec Ideal S1x1x5000 .i32) (g : Fin 64) (p : Fin 5000) :
    indicator v0 (ix2 g p)
      = ((((IntOp.cmpi .eq (v0 (ix3 (0 : Fin 1) (0 : Fin 1) p)) (BitVec.ofNat 32 g.val)).setWidth 32).toInt : ℝ) : EReal) := by
  show ((((IntOp.cmpi .eq (broadcastTo S64x5000 (shapeCast S1x5000 v0 shapeCasts_S1x1x5000_S1x5000) broadcasts_S1x5000_S64x5000 (ix2 g p))
      (iota .tc S64x5000 32 [0] iota_S64x5000_d0_w32 (ix2 g p))).setWidth 32).toInt : ℝ) : EReal) = _
  rw [broadcastTo_1b_ab_apply, shapeCast_1ab_ab_apply, iota_single_apply]

/-- Where the id is the word for `g` the indicator is one. -/
theorem indicator_eq_one (v0 : Vec Ideal S1x1x5000 .i32) (g : Fin 64) (p : Fin 5000)
    (h : v0 (ix3 (0 : Fin 1) (0 : Fin 1) p) = BitVec.ofNat 32 g.val) : indicator v0 (ix2 g p) = 1 := by
  rw [indicator_apply, StableHlo.Predicate.cmpi_eq_iff.mpr h]
  norm_num

/-- Where it is another word the indicator is zero. -/
theorem indicator_eq_zero (v0 : Vec Ideal S1x1x5000 .i32) (g : Fin 64) (p : Fin 5000)
    (h : v0 (ix3 (0 : Fin 1) (0 : Fin 1) p) ≠ BitVec.ofNat 32 g.val) : indicator v0 (ix2 g p) = 0 := by
  rw [indicator_apply, eq_zero_of_ne_one (fun hc => h (StableHlo.Predicate.cmpi_eq_iff.mp hc))]
  norm_num

/-- The indicator's product with the table, at row `p` and lane `j`, is the table's row the id at `p` names. -/
theorem gathered_apply (v0 : Vec Ideal S1x1x5000 .i32) (u : Vec Ideal S64x128 .f32) (p : Fin 5000) (j : Fin 128)
    (hb : (v0 (ix3 (0 : Fin 1) (0 : Fin 1) p)).toNat < 64) :
    matmul dot_S64x5000_S64x128_S5000x128_0_0_1_1_n_n none (indicator v0) (truncf .bf16 u bitsLt_bf16_f32)
        (constant S5000x128 .f32 0x00000000#32) (ix2 p j)
      = u (ix2 (tableRow (v0 (ix3 (0 : Fin 1) (0 : Fin 1) p))) j) := by
  rw [mmG]
  refine sum_indicator (tableRow (v0 (ix3 (0 : Fin 1) (0 : Fin 1) p))) (fun g => indicator v0 (ix2 g p))
    (fun g => u (ix2 g j)) (indicator_eq_one v0 _ p ?_) (fun g hg => indicator_eq_zero v0 g p ?_)
  · rw [tableRow_val hb, BitVec.ofNat_toNat, BitVec.setWidth_eq]
  · intro hc
    apply hg
    apply Fin.ext
    rw [tableRow_val hb, hc, BitVec.toNat_ofNat]
    have := g.isLt
    omega

/-! ## The first layer's partial products -/

/-- One partial product of the first layer at row `p`, lane `j`: the block's row against the 128-row stretch of the
    weights that starts at row `o`. -/
theorem part_apply (o : ℕ) (x : FVec Ideal S5000x128 .bf16) (W : Vec Ideal S512x100 .f32)
    (hs : S512x100.Slices ![o, 0] S128x100) (f : Fin 128 → Fin 512) (hf : ∀ k, (f k).val = o + k.val)
    (p : Fin 5000) (j : Fin 100) :
    matmul dot_S5000x128_S128x100_S5000x100_1_0_0_1_n_n none x
        (extractStridedSlice S128x100 ![o, 0] (truncf .bf16 W bitsLt_bf16_f32) hs) (constant S5000x100 .f32 0x00000000#32) (ix2 p j)
      = ∑ k : Fin 128, x (ix2 p k) * W (ix2 (f k) j) := by
  rw [mmA]
  exact Finset.sum_congr rfl fun k _ => congrArg (x (ix2 p k) * ·) (slice2_axis0_apply o _ hs k j (f k) (hf k))

/-! ## The hidden layers -/

/-- A hidden layer before its rectifier, at row `p`, lane `j`: the dense layer on the row. -/
theorem hidden_apply (x : FVec Ideal S5000x100 .bf16) (W : Vec Ideal S100x100 .f32) (b : Vec Ideal S100 .f32)
    (p : Fin 5000) (j : Fin 100) :
    addf (matmul dot_S5000x100_S100x100_S5000x100_1_0_0_1_n_n none x (truncf .bf16 W bitsLt_bf16_f32) (constant S5000x100 .f32 0x00000000#32))
        (broadcastTo S5000x100 (shapeCast S1x100 b shapeCasts_S100_S1x100) broadcasts_S1x100_S5000x100) (ix2 p j)
      = dense (fun k => x (ix2 p k)) (fun k j => W (ix2 k j)) (fun j => b (ix1 j)) j := by
  show matmul dot_S5000x100_S100x100_S5000x100_1_0_0_1_n_n none x (truncf .bf16 W bitsLt_bf16_f32) (constant S5000x100 .f32 0x00000000#32) (ix2 p j)
      + broadcastTo S5000x100 (shapeCast S1x100 b shapeCasts_S100_S1x100) broadcasts_S1x100_S5000x100 (ix2 p j) = _
  rw [mmB, bias100_apply]
  rfl

/-- The last layer at row `p`, lane `j`: the dense layer on the row. -/
theorem last_apply (x : FVec Ideal S5000x100 .bf16) (W : Vec Ideal S100x128 .f32) (b : Vec Ideal S128 .f32)
    (p : Fin 5000) (j : Fin 128) :
    addf (matmul dot_S5000x100_S100x128_S5000x128_1_0_0_1_n_n none x (truncf .bf16 W bitsLt_bf16_f32) (constant S5000x128 .f32 0x00000000#32))
        (broadcastTo S5000x128 (shapeCast S1x128 b shapeCasts_S128_S1x128) broadcasts_S1x128_S5000x128) (ix2 p j)
      = dense (fun k => x (ix2 p k)) (fun k j => W (ix2 k j)) (fun j => b (ix1 j)) j := by
  show matmul dot_S5000x100_S100x128_S5000x128_1_0_0_1_n_n none x (truncf .bf16 W bitsLt_bf16_f32) (constant S5000x128 .f32 0x00000000#32) (ix2 p j)
      + broadcastTo S5000x128 (shapeCast S1x128 b shapeCasts_S128_S1x128) broadcasts_S1x128_S5000x128 (ix2 p j) = _
  rw [mmC, bias128_apply]
  rfl

/-! ## The layers on a row -/

/-- The rectified first layer on row `p`: the four partial products in the kernel's order, the bias, the rectifier. -/
theorem layer1_row (v0 : Vec Ideal S1x1x5000 .i32) (v8 : Vec Ideal S64x128 .f32) (v12 v13 v15 : Vec Ideal S5000x128 .f32)
    (v18 : Vec Ideal S512x100 .f32) (v31 : Vec Ideal S100 .f32) (p : Fin 5000)
    (hb : (v0 (ix3 (0 : Fin 1) (0 : Fin 1) p)).toNat < 64) :
    (fun j => k0_pay2 v0 v8 v12 v13 v15 v18 v31 (ix2 p j))
      = relu (first (fun k => v13 (ix2 p k)) (fun k => v15 (ix2 p k)) (fun k => v12 (ix2 p k))
          (fun k => v8 (ix2 (tableRow (v0 (ix3 (0 : Fin 1) (0 : Fin 1) p))) k)) (fun k j => v18 (ix2 k j)) (fun j => v31 (ix1 j))) := by
  funext j
  unfold k0_pay2
  dsimp only
  rw [truncf_apply, maximumf_apply, addf_apply, addf_apply, addf_apply, addf_apply,
    part_apply 0 _ v18 _ (fun k => ⟨k.val, by have := k.isLt; omega⟩) (fun k => (Nat.zero_add _).symm),
    part_apply 128 _ v18 _ (fun k => ⟨128 + k.val, by have := k.isLt; omega⟩) (fun _ => rfl),
    part_apply 256 _ v18 _ (fun k => ⟨256 + k.val, by have := k.isLt; omega⟩) (fun _ => rfl),
    part_apply 384 _ v18 _ (fun k => ⟨384 + k.val, by have := k.isLt; omega⟩) (fun _ => rfl),
    bias100_apply]
  have eg : ∀ k : Fin 128, (truncf .bf16 (matmul dot_S64x5000_S64x128_S5000x128_0_0_1_1_n_n none (indicator v0)
      (truncf .bf16 v8 bitsLt_bf16_f32) (constant S5000x128 .f32 0x00000000#32)) bitsLt_bf16_f32 : FVec Ideal S5000x128 .bf16) (ix2 p k)
      = v8 (ix2 (tableRow (v0 (ix3 (0 : Fin 1) (0 : Fin 1) p))) k) := fun k => gathered_apply v0 v8 p k hb
  simp only [eg]
  rfl

/-- A rectified hidden layer on row `p`. -/
theorem hidden_row (x : FVec Ideal S5000x100 .bf16) (W : Vec Ideal S100x100 .f32) (b : Vec Ideal S100 .f32) (p : Fin 5000) :
    (fun j => (truncf .bf16 (maximumf (addf (matmul dot_S5000x100_S100x100_S5000x100_1_0_0_1_n_n none x (truncf .bf16 W bitsLt_bf16_f32)
        (constant S5000x100 .f32 0x00000000#32)) (broadcastTo S5000x100 (shapeCast S1x100 b shapeCasts_S100_S1x100) broadcasts_S1x100_S5000x100))
        (broadcast S5000x100 (Scalar.ofBits .f32 0x00000000#32))) bitsLt_bf16_f32 : FVec Ideal S5000x100 .bf16) (ix2 p j))
      = relu (dense (fun k => x (ix2 p k)) (fun k j => W (ix2 k j)) (fun j => b (ix1 j))) := by
  funext j
  rw [truncf_apply, maximumf_apply, hidden_apply]
  rfl

/-- Layers two to four on row `p`, from the rectified first layer's row. -/
theorem mlp_row (v37 : FVec Ideal S5000x100 .bf16) (v38 : Vec Ideal S100x100 .f32) (v41 : Vec Ideal S100 .f32)
    (v48 : Vec Ideal S100x100 .f32) (v51 : Vec Ideal S100 .f32) (v58 : Vec Ideal S100x128 .f32) (v61 : Vec Ideal S128 .f32)
    (p : Fin 5000) :
    (fun q => k0_pay3 v37 v38 v41 v48 v51 v58 v61 (ix2 p q))
      = dense (relu (dense (relu (dense (fun k => v37 (ix2 p k)) (fun k j => v38 (ix2 k j)) (fun j => v41 (ix1 j))))
          (fun k j => v48 (ix2 k j)) (fun j => v51 (ix1 j)))) (fun k j => v58 (ix2 k j)) (fun j => v61 (ix1 j)) := by
  funext q
  unfold k0_pay3
  rw [last_apply, hidden_row, hidden_row]

/-! ## The normalisation and the residual -/

/-- The row means, divided out and broadcast back over the block, as the kernel writes them. -/
abbrev meanBlock (H : FVec Ideal S5000x128 .f32) : FVec Ideal S5000x128 .f32 :=
  broadcastTo S5000x128 (divf (shapeCast S5000x1 (multiReduction .add [1] S5000 H 0x00000000#32 reduces_S5000x128_S5000 (.inl rfl) rfl) shapeCasts_S5000_S5000x1) (broadcast S5000x1 (Scalar.ofBits .f32 0x43000000#32))) broadcasts_S5000x1_S5000x128

/-- What the block holds at `y`, from the attribute block `A` and the block `H` the last dense layer leaves. -/
abbrev normTail (A H : FVec Ideal S5000x128 .f32) (γ β : Vec Ideal S128 .f32) : Vec Ideal S5000x128 .f32 := fun y =>
  FloatOps.addf (A (Value.ix15_0 y)) (FloatOps.addf (FloatOps.mulf (FloatOps.mulf (FloatOps.subf (H (Value.ix15_1 y)) (FloatOps.divf ((multiReduction .add [1] S5000 H 0x00000000#32 reduces_S5000x128_S5000 (.inl rfl) rfl) (Value.ix15_2 y)) (Scalar.ofBits .f32 0x43000000#32))) (FloatOps.rsqrt (FloatOps.addf (FloatOps.divf ((multiReduction .add [1] S5000 (mulf (subf H (meanBlock H)) (subf H (meanBlock H))) 0x00000000#32 reduces_S5000x128_S5000 (.inl rfl) rfl) (Value.ix15_3 y)) (Scalar.ofBits .f32 0x43000000#32)) (Scalar.ofBits .f32 0x3727C5AC#32)))) (γ (Value.ix15_4 y))) (β (Value.ix15_5 y)))

/-- The mean block at `(p, k)` is the mean of row `p`. -/
theorem meanBlock_apply (H : FVec Ideal S5000x128 .f32) (p : Fin 5000) (k : Fin 128) :
    meanBlock H (ix2 p k) = mean128 (fun k => H (ix2 p k)) := by
  refine (Cert.LibColumn.broadcastTo_a1_ab_apply _ _ p k).trans ?_
  exact congrArg (fun s => Ideal.div s (Ideal.ofBits .f32 0x43000000#32))
    ((Cert.LibColumn.shapeCast_a_a1_apply _ _ p 0).trans (Cert.LibColumn.sumAxis1_apply _ _ _ _ _ p))

/-- At `(p, q)`: the attribute entry plus the normalised row at lane `q`. -/
theorem normTail_apply (A H : FVec Ideal S5000x128 .f32) (γ β : Vec Ideal S128 .f32) (p : Fin 5000) (q : Fin 128) :
    normTail A H γ β (ix2 p q)
      = A (ix2 p q) + norm (fun k => H (ix2 p k)) (fun j => γ (ix1 j)) (fun j => β (ix1 j)) q := by
  have i0 : Value.ix15_0 (ix2 p q) = ix2 p q := funext fun a => Fin.ext (by match a with | ⟨0, _⟩ => rfl | ⟨1, _⟩ => rfl)
  have i1 : Value.ix15_1 (ix2 p q) = ix2 p q := funext fun a => Fin.ext (by match a with | ⟨0, _⟩ => rfl | ⟨1, _⟩ => rfl)
  have i2 : Value.ix15_2 (ix2 p q) = ix1 p := funext fun a => Fin.ext (by match a with | ⟨0, _⟩ => rfl)
  have i3 : Value.ix15_3 (ix2 p q) = ix1 p := funext fun a => Fin.ext (by match a with | ⟨0, _⟩ => rfl)
  have i4 : Value.ix15_4 (ix2 p q) = ix1 q := funext fun a => Fin.ext (by match a with | ⟨0, _⟩ => rfl)
  have i5 : Value.ix15_5 (ix2 p q) = ix1 q := funext fun a => Fin.ext (by match a with | ⟨0, _⟩ => rfl)
  have hm : multiReduction .add [1] S5000 H 0x00000000#32 reduces_S5000x128_S5000 (.inl rfl) rfl (ix1 p)
      = ∑ k : Fin 128, H (ix2 p k) := Cert.LibColumn.sumAxis1_apply _ _ _ _ _ p
  have hv : multiReduction .add [1] S5000 (mulf (subf H (meanBlock H)) (subf H (meanBlock H))) 0x00000000#32 reduces_S5000x128_S5000 (.inl rfl) rfl (ix1 p)
      = ∑ k : Fin 128, (H (ix2 p k) - mean128 (fun k => H (ix2 p k))) * (H (ix2 p k) - mean128 (fun k => H (ix2 p k))) := by
    refine (Cert.LibColumn.sumAxis1_apply _ _ _ _ _ p).trans (Finset.sum_congr rfl fun k _ => ?_)
    rw [mulf_apply, subf_apply, meanBlock_apply]
  show A (Value.ix15_0 (ix2 p q)) + ((H (Value.ix15_1 (ix2 p q)) - Ideal.div (multiReduction .add [1] S5000 H 0x00000000#32 reduces_S5000x128_S5000 (.inl rfl) rfl (Value.ix15_2 (ix2 p q))) (Ideal.ofBits .f32 0x43000000#32))
      * Ideal.rsqrt (Ideal.div (multiReduction .add [1] S5000 (mulf (subf H (meanBlock H)) (subf H (meanBlock H))) 0x00000000#32 reduces_S5000x128_S5000 (.inl rfl) rfl (Value.ix15_3 (ix2 p q))) (Ideal.ofBits .f32 0x43000000#32) + Ideal.ofBits .f32 0x3727C5AC#32)
      * γ (Value.ix15_4 (ix2 p q)) + β (Value.ix15_5 (ix2 p q))) = _
  rw [i0, i1, i2, i3, i4, i5, hv, hm]
  rfl

/-! ## The block a point writes, row by row -/

/-- What a grid point leaves in its output block, at row `p` and lane `q`, is the edge model's row function of row `p`
    of the streamed blocks and of the table row the id at `p` names. -/
theorem e15_row (P0 : Vec Ideal S5000x128 .f32) (P1 : Vec Ideal S1x1x5000 .i32) (P2 : Vec Ideal S64x128 .f32)
    (P3 P4 : Vec Ideal S5000x128 .f32) (P5 : Vec Ideal S512x100 .f32) (P6 : Vec Ideal S100 .f32) (P7 : Vec Ideal S100x100 .f32)
    (P8 : Vec Ideal S100 .f32) (P9 : Vec Ideal S100x100 .f32) (P10 : Vec Ideal S100 .f32) (P11 : Vec Ideal S100x128 .f32)
    (P12 P13 P14 : Vec Ideal S128 .f32) (p : Fin 5000) (q : Fin 128)
    (hb : (P1 (ix3 (0 : Fin 1) (0 : Fin 1) p)).toNat < 64) :
    Value.E15 P0 P1 P2 P3 P4 P5 P6 P7 P8 P9 P10 P11 P12 P13 P14 (ix2 p q)
      = row (fun k => P0 (ix2 p k)) (fun k => P3 (ix2 p k)) (fun k => P4 (ix2 p k))
          (fun k => P2 (ix2 (tableRow (P1 (ix3 (0 : Fin 1) (0 : Fin 1) p))) k)) (fun k j => P5 (ix2 k j)) (fun j => P6 (ix1 j))
          (fun k j => P7 (ix2 k j)) (fun j => P8 (ix1 j)) (fun k j => P9 (ix2 k j)) (fun j => P10 (ix1 j))
          (fun k j => P11 (ix2 k j)) (fun j => P12 (ix1 j)) (fun j => P13 (ix1 j)) (fun j => P14 (ix1 j)) q := by
  show normTail P0 (k0_pay3 (k0_pay2 P1 P2 P0 P3 P4 P5 P6) P7 P8 P9 P10 P11 P12) P13 P14 (ix2 p q) = _
  rw [normTail_apply, mlp_row, layer1_row P1 P2 P0 P3 P4 P5 P6 p hb]
  rfl

end Cert.KernelIdeal.KerRow

end
-- ==== Proof.KerBlocks.lean ====
/-
  From the blocks the grid points write to the whole output array, over the extended reals.

  Point `t` of the 80 stages rows `5000·t … 5000·t + 4999` of the three streamed arrays, positions
  `5000·t …` of the graph ids (through their [80, 1, 5000] re-laying), the resident table and weights whole, and
  writes back rows `5000·t …` of the output. Row `p` of what it writes is the edge model's row function of row
  `5000·t + p` of the arguments, so the block is block `t` of `EdgeRow.result` of the argument arrays; the 80
  blocks tile the 400000 rows, so the array ends holding that function — given every graph id below 64.
-/
import proofs.«420650_j49546742726707_3_alg».proof.Proof.Gen.KernelIdeal.Value
import proofs.«420650_j49546742726707_3_alg».proof.Proof.KerRow
import proofs.«420650_j49546742726707_3_alg».proof.Proof.EdgeRow
import Idealize.ShloMosaic.Lib.Pipeline.Value
import Idealize.ShloMosaic.Lib.ValueIdx
import Idealize.ShloMosaic.Lib.StableHlo.Run

noncomputable section

namespace Cert.KernelIdeal.KerBlocks

open Cert.KernelIdeal Cert.KernelIdeal.Gen Idealize.ShloMosaic Idealize.ShloMosaic.TcCoe Idealize.SL.Sem
open Idealize.ShloMosaic.ValueIdx Cert.EdgeRow
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The output array as one function of the argument arrays as the region finds them. -/
abbrev whole (c : Dev nD) : S400000x128.Idx → EReal :=
  result (V m c main_arg0) (V m c main_arg1) (V m c main_arg2) (V m c main_arg3) (V m c main_arg4) (V m c main_arg5)
    (V m c main_arg6) (V m c main_arg7) (V m c main_arg8) (V m c main_arg9) (V m c main_arg10) (V m c main_arg11)
    (V m c main_arg12) (V m c main_arg13) (V m c main_arg14)

/-- The printed index maps over the 80 points: the id window and the streamed windows sit at block `t` along their
    leading axis, every other coordinate of every window at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_15.index t (0 : Fin 2) = t.val ∧ win0_15.index t (1 : Fin 2) = 0 :=
  (by decide +kernel : ∀ t : Fin grid0.N, _)

theorem idx_resident : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0
    ∧ win0_12.index t (0 : Fin 1) = 0 ∧ win0_13.index t (0 : Fin 1) = 0 ∧ win0_14.index t (0 : Fin 1) = 0 :=
  (by decide +kernel : ∀ t : Fin grid0.N, _)

/-! ## The blocks read off the arrays -/

/-- Row `p` of the source block at point `t` is row `e = 5000·t + p` of the source array. -/
theorem read_src (c : Dev nD) (t : Fin cfg0.N) (p : Fin 5000) (e : Fin 400000) (he : e.val = t.val * 5000 + p.val) :
    (fun k : Fin 128 => iblk m c 1 t (ix2 p k)) = fun k => V m c main_arg0 (ix2 e k) := by
  funext k
  show V m c main_arg0 (((cfg0.win 1).blk t).view.emb (ix2 p k)) = V m c main_arg0 (ix2 e k)
  obtain ⟨_, _, _, e0, e1, _⟩ := idx_facts t
  refine congrArg _ (funext fun a => Fin.ext ?_)
  match a with
  | ⟨0, _⟩ => show win0_1.index t (0 : Fin 2) * 5000 + 1 * p.val = e.val; omega
  | ⟨1, _⟩ => show win0_1.index t (1 : Fin 2) * 128 + 1 * k.val = k.val; omega

/-- The same for the destination block. -/
theorem read_dst (c : Dev nD) (t : Fin cfg0.N) (p : Fin 5000) (e : Fin 400000) (he : e.val = t.val * 5000 + p.val) :
    (fun k : Fin 128 => iblk m c 2 t (ix2 p k)) = fun k => V m c main_arg1 (ix2 e k) := by
  funext k
  show V m c main_arg1 (((cfg0.win 2).blk t).view.emb (ix2 p k)) = V m c main_arg1 (ix2 e k)
  obtain ⟨_, _, _, _, _, e0, e1, _⟩ := idx_facts t
  refine congrArg _ (funext fun a => Fin.ext ?_)
  match a with
  | ⟨0, _⟩ => show win0_2.index t (0 : Fin 2) * 5000 + 1 * p.val = e.val; omega
  | ⟨1, _⟩ => show win0_2.index t (1 : Fin 2) * 128 + 1 * k.val = k.val; omega

/-- The same for the attribute block. -/
theorem read_ea (c : Dev nD) (t : Fin cfg0.N) (p : Fin 5000) (e : Fin 400000) (he : e.val = t.val * 5000 + p.val) :
    (fun k : Fin 128 => iblk m c 3 t (ix2 p k)) = fun k => V m c main_arg2 (ix2 e k) := by
  funext k
  show V m c main_arg2 (((cfg0.win 3).blk t).view.emb (ix2 p k)) = V m c main_arg2 (ix2 e k)
  obtain ⟨_, _, _, _, _, _, _, e0, e1, _⟩ := idx_facts t
  refine congrArg _ (funext fun a => Fin.ext ?_)
  match a with
  | ⟨0, _⟩ => show win0_3.index t (0 : Fin 2) * 5000 + 1 * p.val = e.val; omega
  | ⟨1, _⟩ => show win0_3.index t (1 : Fin 2) * 128 + 1 * k.val = k.val; omega

/-- The resident table is staged whole at every point. -/
theorem read_u (c : Dev nD) (t : Fin cfg0.N) : (iblk m c 4 t : S64x128.Idx → EReal) = V m c main_arg3 := by
  funext y
  show V m c main_arg3 (((cfg0.win 4).blk t).view.emb y) = V m c main_arg3 y
  obtain ⟨e0, e1, _⟩ := idx_resident t
  refine congrArg _ (funext fun a => Fin.ext ?_)
  match a with
  | ⟨0, _⟩ => show win0_4.index t (0 : Fin 2) * 64 + 1 * (y 0).val = (y 0).val; omega
  | ⟨1, _⟩ => show win0_4.index t (1 : Fin 2) * 128 + 1 * (y 1).val = (y 1).val; omega

/-- So are the first layer's weights … -/
theorem read_w1 (c : Dev nD) (t : Fin cfg0.N) : (iblk m c 5 t : S512x100.Idx → EReal) = V m c main_arg5 := by
  funext y
  show V m c main_arg5 (((cfg0.win 5).blk t).view.emb y) = V m c main_arg5 y
  obtain ⟨_, _, e0, e1, _⟩ := idx_resident t
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 100 + 1 * (y 1).val = (y 1).val; omega

/-- … and its bias … -/
theorem read_b1 (c : Dev nD) (t : Fin cfg0.N) : (iblk m c 6 t : S100.Idx → EReal) = V m c main_arg6 := by
  funext y
  show V m c main_arg6 (((cfg0.win 6).blk t).view.emb y) = V m c main_arg6 y
  obtain ⟨_, _, _, _, e0, _⟩ := idx_resident t
  refine congrArg _ (funext fun a => Fin.ext ?_)
  match a with
  | ⟨0, _⟩ => show win0_6.index t (0 : Fin 1) * 100 + 1 * (y 0).val = (y 0).val; omega

/-- … the second layer's weights … -/
theorem read_w2 (c : Dev nD) (t : Fin cfg0.N) : (iblk m c 7 t : S100x100.Idx → EReal) = V m c main_arg7 := by
  funext y
  show V m c main_arg7 (((cfg0.win 7).blk t).view.emb y) = V m c main_arg7 y
  obtain ⟨_, _, _, _, _, e0, e1, _⟩ := idx_resident t
  refine congrArg _ (funext fun a => Fin.ext ?_)
  match a with
  | ⟨0, _⟩ => show win0_7.index t (0 : Fin 2) * 100 + 1 * (y 0).val = (y 0).val; omega
  | ⟨1, _⟩ => show win0_7.index t (1 : Fin 2) * 100 + 1 * (y 1).val = (y 1).val; omega

/-- … and bias … -/
theorem read_b2 (c : Dev nD) (t : Fin cfg0.N) : (iblk m c 8 t : S100.Idx → EReal) = V m c main_arg8 := by
  funext y
  show V m c main_arg8 (((cfg0.win 8).blk t).view.emb y) = V m c main_arg8 y
  obtain ⟨_, _, _, _, _, _, _, e0, _⟩ := idx_resident t
  refine congrArg _ (funext fun a => Fin.ext ?_)
  match a with
  | ⟨0, _⟩ => show win0_8.index t (0 : Fin 1) * 100 + 1 * (y 0).val = (y 0).val; omega

/-- … the third layer's weights … -/
theorem read_w3 (c : Dev nD) (t : Fin cfg0.N) : (iblk m c 9 t : S100x100.Idx → EReal) = V m c main_arg9 := by
  funext y
  show V m c main_arg9 (((cfg0.win 9).blk t).view.emb y) = V m c main_arg9 y
  obtain ⟨_, _, _, _, _, _, _, _, e0, e1, _⟩ := idx_resident t
  refine congrArg _ (funext fun a => Fin.ext ?_)
  match a with
  | ⟨0, _⟩ => show win0_9.index t (0 : Fin 2) * 100 + 1 * (y 0).val = (y 0).val; omega
  | ⟨1, _⟩ => show win0_9.index t (1 : Fin 2) * 100 + 1 * (y 1).val = (y 1).val; omega

/-- … and bias … -/
theorem read_b3 (c : Dev nD) (t : Fin cfg0.N) : (iblk m c 10 t : S100.Idx → EReal) = V m c main_arg10 := by
  funext y
  show V m c main_arg10 (((cfg0.win 10).blk t).view.emb y) = V m c main_arg10 y
  obtain ⟨_, _, _, _, _, _, _, _, _, _, e0, _⟩ := idx_resident t
  refine congrArg _ (funext fun a => Fin.ext ?_)
  match a with
  | ⟨0, _⟩ => show win0_10.index t (0 : Fin 1) * 100 + 1 * (y 0).val = (y 0).val; omega

/-- … the fourth layer's weights … -/
theorem read_w4 (c : Dev nD) (t : Fin cfg0.N) : (iblk m c 11 t : S100x128.Idx → EReal) = V m c main_arg11 := by
  funext y
  show V m c main_arg11 (((cfg0.win 11).blk t).view.emb y) = V m c main_arg11 y
  obtain ⟨_, _, _, _, _, _, _, _, _, _, _, e0, e1, _⟩ := idx_resident t
  refine congrArg _ (funext fun a => Fin.ext ?_)
  match a with
  | ⟨0, _⟩ => show win0_11.index t (0 : Fin 2) * 100 + 1 * (y 0).val = (y 0).val; omega
  | ⟨1, _⟩ => show win0_11.index t (1 : Fin 2) * 128 + 1 * (y 1).val = (y 1).val; omega

/-- … and bias … -/
theorem read_b4 (c : Dev nD) (t : Fin cfg0.N) : (iblk m c 12 t : S128.Idx → EReal) = V m c main_arg12 := by
  funext y
  show V m c main_arg12 (((cfg0.win 12).blk t).view.emb y) = V m c main_arg12 y
  obtain ⟨_, _, _, _, _, _, _, _, _, _, _, _, _, e0, _⟩ := idx_resident t
  refine congrArg _ (funext fun a => Fin.ext ?_)
  match a with
  | ⟨0, _⟩ => show win0_12.index t (0 : Fin 1) * 128 + 1 * (y 0).val = (y 0).val; omega

/-- … the normalisation's scale … -/
theorem read_gamma (c : Dev nD) (t : Fin cfg0.N) : (iblk m c 13 t : S128.Idx → EReal) = V m c main_arg13 := by
  funext y
  show V m c main_arg13 (((cfg0.win 13).blk t).view.emb y) = V m c main_arg13 y
  obtain ⟨_, _, _, _, _, _, _, _, _, _, _, _, _, _, e0, _⟩ := idx_resident t
  refine congrArg _ (funext fun a => Fin.ext ?_)
  match a with
  | ⟨0, _⟩ => show win0_13.index t (0 : Fin 1) * 128 + 1 * (y 0).val = (y 0).val; omega

/-- … and shift. -/
theorem read_beta (c : Dev nD) (t : Fin cfg0.N) : (iblk m c 14 t : S128.Idx → EReal) = V m c main_arg14 := by
  funext y
  show V m c main_arg14 (((cfg0.win 14).blk t).view.emb y) = V m c main_arg14 y
  obtain ⟨_, _, _, _, _, _, _, _, _, _, _, _, _, _, _, e0⟩ := idx_resident t
  refine congrArg _ (funext fun a => Fin.ext ?_)
  match a with
  | ⟨0, _⟩ => show win0_14.index t (0 : Fin 1) * 128 + 1 * (y 0).val = (y 0).val; omega

/-- The array the id window stages is the ids re-laid as [80, 1, 5000]. -/
theorem V_ids (c : Dev nD) :
    (V m c main_v0 : S80x1x5000.Idx → BitVec 32) = shapeCast S80x1x5000 (V m c main_arg4) shapeCasts_S400000_S80x1x5000 := by
  rw [V_main_arg4]
  dsimp only [Gen.V, Gen.hostOps0]
  after_results
  rfl

/-- Position `p` of the id block at point `t` is id `e = 5000·t + p`. -/
theorem read_id (c : Dev nD) (t : Fin cfg0.N) (p : Fin 5000) (e : Fin 400000) (he : e.val = t.val * 5000 + p.val) :
    iblk m c 0 t (ix3 (0 : Fin 1) (0 : Fin 1) p) = V m c main_arg4 (ix1 e) := by
  show V m c main_v0 (((cfg0.win 0).blk t).view.emb (ix3 (0 : Fin 1) (0 : Fin 1) p)) = V m c main_arg4 (ix1 e)
  rw [V_ids]
  obtain ⟨e0, e1, e2, _⟩ := idx_facts t
  refine shapeCast_apply _ _ _ _ ?_
  show (S400000.rowMajor (ix1 e)).val
    = (S80x1x5000.rowMajor (((cfg0.win 0).blk t).view.emb (ix3 (0 : Fin 1) (0 : Fin 1) p))).val
  rw [Shape.rowMajor_val_one, Shape.rowMajor_val_three]
  show e.val = ((win0_0.index t (0 : Fin 3) * 1 + 1 * 0) * 1 + (win0_0.index t (1 : Fin 3) * 1 + 1 * 0)) * 5000
      + (win0_0.index t (2 : Fin 3) * 5000 + 1 * p.val)
  omega

/-! ## What a point writes back, and the array at the end -/

/-- WHAT POINT `t` WRITES BACK is block `t` of the edge model's result of the argument arrays. -/
theorem flushed_eq (c : Dev nD) (hb : ∀ e : Fin 400000, (V m c main_arg4 (ix1 e) : BitVec 32).toNat < 64) (t : Fin cfg0.N) :
    (dats m 0 c).flushed 15 t = ((cfg0.win 15).blk t).view.read (Elt Ideal) (whole m c) := by
  rw [Value.flushed15]
  unfold out0_15
  simp only [View.ld_unit_zero (S := S1x1x5000) hz3, View.ld_unit_zero (S := S64x128) hz2,
    View.ld_unit_zero (S := S5000x128) hz2, View.ld_unit_zero (S := S512x100) hz2, View.ld_unit_zero (S := S100) hz1,
    View.ld_unit_zero (S := S100x100) hz2, View.ld_unit_zero (S := S100x128) hz2, View.ld_unit_zero (S := S128) hz1]
  funext j
  obtain ⟨p, q, rfl⟩ : ∃ (p : Fin 5000) (q : Fin 128), j = ix2 p q := ⟨j 0, j 1, eq_ix2 j⟩
  have hp : p.val < 5000 := p.isLt
  have ht : t.val < 80 := lt_of_lt_of_eq t.isLt N_0
  have hlt : t.val * 5000 + p.val < 400000 := by omega
  have hid := read_id m c t p ⟨t.val * 5000 + p.val, hlt⟩ rfl
  have hemb : ((cfg0.win 15).blk t).view.emb (ix2 p q) = ix2 (⟨t.val * 5000 + p.val, hlt⟩ : Fin 400000) q := by
    obtain ⟨_, _, _, _, _, _, _, _, _, e0, e1⟩ := idx_facts t
    funext a; apply Fin.ext
    match a with
    | ⟨0, _⟩ => show win0_15.index t (0 : Fin 2) * 5000 + 1 * p.val = t.val * 5000 + p.val; omega
    | ⟨1, _⟩ => show win0_15.index t (1 : Fin 2) * 128 + 1 * q.val = q.val; omega
  refine (Value.canon15_eq (iblk m c 3 t) (iblk m c 0 t) (iblk m c 4 t) (iblk m c 1 t) (iblk m c 2 t) (iblk m c 5 t)
    (iblk m c 6 t) (iblk m c 7 t) (iblk m c 8 t) (iblk m c 9 t) (iblk m c 10 t) (iblk m c 11 t) (iblk m c 12 t)
    (iblk m c 13 t) (iblk m c 14 t) (ix2 p q)).trans ?_
  refine (KerRow.e15_row (iblk m c 3 t) (iblk m c 0 t) (iblk m c 4 t) (iblk m c 1 t) (iblk m c 2 t) (iblk m c 5 t)
    (iblk m c 6 t) (iblk m c 7 t) (iblk m c 8 t) (iblk m c 9 t) (iblk m c 10 t) (iblk m c 11 t) (iblk m c 12 t)
    (iblk m c 13 t) (iblk m c 14 t) p q (by rw [hid]; exact hb _)).trans ?_
  show _ = whole m c (((cfg0.win 15).blk t).view.emb (ix2 p q))
  rw [hemb, hid, read_ea m c t p ⟨t.val * 5000 + p.val, hlt⟩ rfl, read_src m c t p ⟨t.val * 5000 + p.val, hlt⟩ rfl,
    read_dst m c t p ⟨t.val * 5000 + p.val, hlt⟩ rfl, read_u m c t, read_w1 m c t, read_b1 m c t, read_w2 m c t,
    read_b2 m c t, read_w3 m c t, read_b3 m c t, read_w4 m c t, read_b4 m c t, read_gamma m c t, read_beta m c t]
  rfl

/-- An index of the output array is in point `t`'s block iff each coordinate is in the block's range on its axis. -/
theorem mem_blk (t : Fin cfg0.N) (i : S400000x128.Idx) :
    i ∈ ((cfg0.win 15).blk t).view.set ↔ ∀ a : Fin 2, win0_15.index t a * S5000x128.size a ≤ (i a).val
      ∧ (i a).val < win0_15.index t a * S5000x128.size a + S5000x128.size a := by
  show i ∈ ((View.whole main_v1).slice (win0_15.rect t)).set ↔ _
  rw [View.set_slice_whole, Rect.mem_set_unit]
  exact Iff.rfl

/-- Every index of the output array is in the block of the point its row falls in: row `r` belongs to point `r / 5000`. -/
theorem cover (i : S400000x128.Idx) :
    ∃ t : Fin cfg0.N, (cfg0.win 15).flush t = true ∧ i ∈ ((cfg0.win 15).blk t).view.set := by
  have hi0 : (i 0).val < 400000 := (i 0).isLt
  have hi1 : (i 1).val < 128 := (i 1).isLt
  have hN : (i 0).val / 5000 < cfg0.N := lt_of_lt_of_eq (show (i 0).val / 5000 < 80 by omega) N_0.symm
  refine ⟨⟨(i 0).val / 5000, hN⟩, flush0_15 _, ?_⟩
  rw [mem_blk]
  obtain ⟨_, _, _, _, _, _, _, _, _, e0, e1⟩ := idx_facts ⟨(i 0).val / 5000, hN⟩
  intro a
  match a with
  | ⟨0, _⟩ =>
    show win0_15.index ⟨(i 0).val / 5000, hN⟩ (0 : Fin 2) * 5000 ≤ (i 0).val
      ∧ (i 0).val < win0_15.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win0_15.index ⟨(i 0).val / 5000, hN⟩ (1 : Fin 2) * 128 ≤ (i 1).val
      ∧ (i 1).val < win0_15.index ⟨(i 0).val / 5000, hN⟩ (1 : Fin 2) * 128 + 128
    rw [e1]
    omega

/-- THE ARRAY after the run is the edge model's result of the argument arrays. -/
theorem final (c : Dev nD) (hb : ∀ e : Fin 400000, (V m c main_arg4 (ix1 e) : BitVec 32).toNat < 64) :
    (dats m 0 c).arrAt 15 cfg0.N = whole m c :=
  (dats m 0 c).arrAt_eq_of_cover 15 (whole m c) (fun t _ => flushed_eq m c hb t) cover

/-- The same function over the arguments as launched. -/
theorem whole_eq (c : Dev nD) :
    whole m c = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13))
      (m ((c : Thread nD τ).loc main_arg14)) := by
  show result (V m c main_arg0) (V m c main_arg1) (V m c main_arg2) (V m c main_arg3) (V m c main_arg4) (V m c main_arg5)
    (V m c main_arg6) (V m c main_arg7) (V m c main_arg8) (V m c main_arg9) (V m c main_arg10) (V m c main_arg11)
    (V m c main_arg12) (V m c main_arg13) (V m c main_arg14) = _
  rw [V_main_arg0, V_main_arg1, V_main_arg2, V_main_arg3, V_main_arg4, V_main_arg5, V_main_arg6, V_main_arg7,
    V_main_arg8, V_main_arg9, V_main_arg10, V_main_arg11, V_main_arg12, V_main_arg13, V_main_arg14]

end Cert.KernelIdeal.KerBlocks

end
-- ==== Proof.RefRow.lean ====
/-
  The reference program is the edge model, row by row.

  With every graph id in range (below 64), the reference's last stage equals `Cert.EdgeRow.result`. The steps, each
  read at one explicit index (edge e, lane j or q):
  the "negative id" wrap leaves an in-range id alone and the gather reads lane k of the table row the id names;
  the 512-wide concatenated row of edge e is its source, destination, attribute and graph rows side by side, so the
  first contraction is the sum of four 128-term partial sums; each later dense layer is a 100-term sum plus its bias,
  the rectifier a maximum with zero; the two reductions are 128-term sums from a zero initial value, divided by 128;
  then the reciprocal square root, scale, shift, and the attribute row added back.
-/
import proofs.«420650_j49546742726707_3_alg».proof.Proof.Gen.ReferenceIdeal.Read
import proofs.«420650_j49546742726707_3_alg».proof.Proof.EdgeRow
import Idealize.ShloMosaic.Lib.ValueIdx
import Idealize.ShloMosaic.Lib.Pipeline.Value
import Idealize.ShloMosaic.PureOps.Ideal.Laws

noncomputable section

open scoped BigOperators

namespace Cert.ReferenceIdeal.RefRow

open Cert.ReferenceIdeal Cert.ReferenceIdeal.Gen Cert.ReferenceIdeal.Read Idealize.ShloMosaic Idealize.ShloMosaic.ValueIdx
  Idealize.ShloMosaic.StableHlo Cert.EdgeRow

/-- A word below 64 is not negative: the signed comparison with zero answers no. -/
theorem slt_zero_of_small (b : BitVec 32) (h : b.toNat < 64) : IntOp.cmpi .slt b 0#32 = 0#1 := by
  have hm : b.msb = false := BitVec.msb_eq_false_iff_two_mul_lt.mpr (by omega)
  have hs : b.slt 0#32 = false := by
    simp only [BitVec.slt, BitVec.toInt_eq_msb_cond, hm]
    simp
  show BitVec.ofBool (b.slt 0#32) = 0#1
  rw [hs]; rfl

/-- A word below 64 read signed and clamped into [0, 63] is itself. -/
theorem clamp_of_small (b : BitVec 32) (h : b.toNat < 64) : min b.toInt.toNat (64 - 1) = b.toNat := by
  have hm : b.msb = false := BitVec.msb_eq_false_iff_two_mul_lt.mpr (by omega)
  have : b.toInt = (b.toNat : Int) := by rw [BitVec.toInt_eq_msb_cond, hm]; simp
  rw [this, Int.toNat_natCast]; omega

/-- The wrapped graph id of edge `e` is the id itself when the id is in range: the "negative id" branch is not taken. -/
theorem v4_at (x4 : (⟨S400000, .i32⟩ : BufTy).Contents (Elt Ideal)) (e : Fin 400000) (h : (x4 (ix1 e)).toNat < 64) :
    val_main_v4 (F := Ideal) x4 (ix1 e) = x4 (ix1 e) := by
  rw [val_main_v4_apply, val_main_v1_apply, val_main_v0_apply, val_main_c_apply, slt_zero_of_small _ h, select_zero]

/-- The gather of whole rows of a 64-row table read at (e, k): lane k of the row whose number is the start index of
    edge e, read signed and clamped into [0, 63]. Operand axis 0 is collapsed and start-indexed; operand axis 1 is the
    offset axis and carries the result's lane. -/
theorem gather_row (x3 : (⟨S64x128, .f32⟩ : BufTy).Contents (Elt Ideal)) (idx : (⟨S400000x1, .i32⟩ : BufTy).Contents (Elt Ideal))
    (e : Fin 400000) (k : Fin 128) :
    Host.gather gather_S64x128_S400000x1_S400000x128_1_0_n_n_0_1_1128 x3 idx (ix2 e k)
      = x3 (ix2 ⟨min (idx (ix2 e (0 : Fin 1))).toInt.toNat (64 - 1), by omega⟩ k) := by
  unfold Host.gather
  congr 1
  funext a
  refine Fin.ext ?_
  match a with
  | ⟨0, _⟩ =>
    show gather_S64x128_S400000x1_S400000x128_1_0_n_n_0_1_1128.start (ix2 e k) idx 0 + gather_S64x128_S400000x1_S400000x128_1_0_n_n_0_1_1128.batchCoord (ix2 e k) 0 + gather_S64x128_S400000x1_S400000x128_1_0_n_n_0_1_1128.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S64x128_S400000x1_S400000x128_1_0_n_n_0_1_1128.startIndexMap from List.mem_singleton.mpr rfl)]
    have hsi : gather_S64x128_S400000x1_S400000x128_1_0_n_n_0_1_1128.siIdx (ix2 e k) ⟨List.idxOf (0 : Fin 2) gather_S64x128_S400000x1_S400000x128_1_0_n_n_0_1_1128.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S64x128_S400000x1_S400000x128_1_0_n_n_0_1_1128.start (ix2 e k) idx 1 + gather_S64x128_S400000x1_S400000x128_1_0_n_n_0_1_1128.batchCoord (ix2 e k) 1 + gather_S64x128_S400000x1_S400000x128_1_0_n_n_0_1_1128.offCoord (ix2 e k) 1 = k.val
    rw [GatherDims.batchCoord_eq_zero _ _ _ List.not_mem_nil]
    unfold GatherDims.start
    rw [dif_neg (show ¬ (1 : Fin 2) ∈ gather_S64x128_S400000x1_S400000x128_1_0_n_n_0_1_1128.startIndexMap by decide)]
    simp only [Nat.add_zero, Nat.zero_add]
    unfold GatherDims.offCoord
    rw [dif_pos (show (1 : Fin 2) ∈ gather_S64x128_S400000x1_S400000x128_1_0_n_n_0_1_1128.sKept by decide)]
    rfl

/-- The start-index column at row e holds the wrapped graph id of edge e. -/
theorem v5_at (x4 : (⟨S400000, .i32⟩ : BufTy).Contents (Elt Ideal)) (e : Fin 400000) :
    val_main_v5 (F := Ideal) x4 (ix2 e (0 : Fin 1)) = val_main_v4 (F := Ideal) x4 (ix1 e) := by
  rw [val_main_v5_apply]
  exact congrArg (val_main_v4 (F := Ideal) x4) (funext fun a => match a with | ⟨0, _⟩ => rfl)

/-- The gather at (e, k) when the start index of edge e is a word `b` below 64: lane k of table row `b`. -/
theorem gather_row_of_small (x3 : (⟨S64x128, .f32⟩ : BufTy).Contents (Elt Ideal)) (idx : (⟨S400000x1, .i32⟩ : BufTy).Contents (Elt Ideal))
    (e : Fin 400000) (k : Fin 128) (b : BitVec 32) (hb : idx (ix2 e (0 : Fin 1)) = b) (h : b.toNat < 64) :
    Host.gather gather_S64x128_S400000x1_S400000x128_1_0_n_n_0_1_1128 x3 idx (ix2 e k) = x3 (ix2 (tableRow b) k) := by
  rw [gather_row]
  subst hb
  exact congrArg x3 (congrArg (fun r : Fin 64 => ix2 r k) (Fin.ext ((clamp_of_small _ h).trans (tableRow_val h).symm)))

/-- The gathered table at (e, k): lane k of the table row the graph id of edge e names. -/
theorem v6_at (x3 : (⟨S64x128, .f32⟩ : BufTy).Contents (Elt Ideal)) (x4 : (⟨S400000, .i32⟩ : BufTy).Contents (Elt Ideal))
    (e : Fin 400000) (k : Fin 128) (h : (x4 (ix1 e)).toNat < 64) :
    val_main_v6 (F := Ideal) x3 x4 (ix2 e k) = x3 (ix2 (tableRow (x4 (ix1 e))) k) := by
  unfold val_main_v6
  exact gather_row_of_small x3 _ e k _ ((v5_at x4 e).trans (v4_at x4 e h)) h

/-- The 512-wide row of edge e, lanes 0 to 127: the source row. -/
theorem v7_src (x0 x1 x2 : (⟨S400000x128, .f32⟩ : BufTy).Contents (Elt Ideal)) (x3 : (⟨S64x128, .f32⟩ : BufTy).Contents (Elt Ideal)) (x4 : (⟨S400000, .i32⟩ : BufTy).Contents (Elt Ideal)) (e : Fin 400000) (k : Fin 128) :
    val_main_v7 (F := Ideal) x0 x1 x2 x3 x4 (ix2 e (⟨k.val, by have := k.isLt; omega⟩ : Fin 512))
      = x0 (ix2 e k) := by
  unfold val_main_v7
  generalize val_main_v6 (F := Ideal) x3 x4 = g
  exact concatenate_apply_piece (1 : Fin S400000x512.rank) [⟨S400000x128, x0⟩, ⟨S400000x128, x1⟩, ⟨S400000x128, x2⟩, ⟨S400000x128, g⟩] concatenates_S400000x128_S400000x128_S400000x128_S400000x128_S400000x512_d1
    (ix2 e (⟨k.val, by have := k.isLt; omega⟩ : Fin 512)) 0 (show 0 < 4 by omega) S400000x128 x0 rfl rfl 0 rfl (ix2 e k)
    (fun b => match b with | ⟨0, _⟩ => fun _ => rfl | ⟨1, _⟩ => fun hb => absurd rfl hb) (Nat.zero_add _)

/-- The 512-wide row of edge e, lanes 128 to 255: the destination row. -/
theorem v7_dst (x0 x1 x2 : (⟨S400000x128, .f32⟩ : BufTy).Contents (Elt Ideal)) (x3 : (⟨S64x128, .f32⟩ : BufTy).Contents (Elt Ideal)) (x4 : (⟨S400000, .i32⟩ : BufTy).Contents (Elt Ideal)) (e : Fin 400000) (k : Fin 128) :
    val_main_v7 (F := Ideal) x0 x1 x2 x3 x4 (ix2 e (⟨128 + k.val, by have := k.isLt; omega⟩ : Fin 512))
      = x1 (ix2 e k) := by
  unfold val_main_v7
  generalize val_main_v6 (F := Ideal) x3 x4 = g
  exact concatenate_apply_piece (1 : Fin S400000x512.rank) [⟨S400000x128, x0⟩, ⟨S400000x128, x1⟩, ⟨S400000x128, x2⟩, ⟨S400000x128, g⟩] concatenates_S400000x128_S400000x128_S400000x128_S400000x128_S400000x512_d1
    (ix2 e (⟨128 + k.val, by have := k.isLt; omega⟩ : Fin 512)) 1 (show 1 < 4 by omega) S400000x128 x1 rfl rfl 128 rfl (ix2 e k)
    (fun b => match b with | ⟨0, _⟩ => fun _ => rfl | ⟨1, _⟩ => fun hb => absurd rfl hb) rfl

/-- The 512-wide row of edge e, lanes 256 to 383: the attribute row. -/
theorem v7_attr (x0 x1 x2 : (⟨S400000x128, .f32⟩ : BufTy).Contents (Elt Ideal)) (x3 : (⟨S64x128, .f32⟩ : BufTy).Contents (Elt Ideal)) (x4 : (⟨S400000, .i32⟩ : BufTy).Contents (Elt Ideal)) (e : Fin 400000) (k : Fin 128) :
    val_main_v7 (F := Ideal) x0 x1 x2 x3 x4 (ix2 e (⟨256 + k.val, by have := k.isLt; omega⟩ : Fin 512))
      = x2 (ix2 e k) := by
  unfold val_main_v7
  generalize val_main_v6 (F := Ideal) x3 x4 = g
  exact concatenate_apply_piece (1 : Fin S400000x512.rank) [⟨S400000x128, x0⟩, ⟨S400000x128, x1⟩, ⟨S400000x128, x2⟩, ⟨S400000x128, g⟩] concatenates_S400000x128_S400000x128_S400000x128_S400000x128_S400000x512_d1
    (ix2 e (⟨256 + k.val, by have := k.isLt; omega⟩ : Fin 512)) 2 (show 2 < 4 by omega) S400000x128 x2 rfl rfl 256 rfl (ix2 e k)
    (fun b => match b with | ⟨0, _⟩ => fun _ => rfl | ⟨1, _⟩ => fun hb => absurd rfl hb) rfl

/-- The 512-wide row of edge e, lanes 384 to 511: the gathered graph row. -/
theorem v7_graph (x0 x1 x2 : (⟨S400000x128, .f32⟩ : BufTy).Contents (Elt Ideal)) (x3 : (⟨S64x128, .f32⟩ : BufTy).Contents (Elt Ideal)) (x4 : (⟨S400000, .i32⟩ : BufTy).Contents (Elt Ideal)) (e : Fin 400000) (k : Fin 128) :
    val_main_v7 (F := Ideal) x0 x1 x2 x3 x4 (ix2 e (⟨384 + k.val, by have := k.isLt; omega⟩ : Fin 512))
      = val_main_v6 (F := Ideal) x3 x4 (ix2 e k) := by
  unfold val_main_v7
  generalize val_main_v6 (F := Ideal) x3 x4 = g
  exact concatenate_apply_piece (1 : Fin S400000x512.rank) [⟨S400000x128, x0⟩, ⟨S400000x128, x1⟩, ⟨S400000x128, x2⟩, ⟨S400000x128, g⟩] concatenates_S400000x128_S400000x128_S400000x128_S400000x128_S400000x512_d1
    (ix2 e (⟨384 + k.val, by have := k.isLt; omega⟩ : Fin 512)) 3 (show 3 < 4 by omega) S400000x128 g rfl rfl 384 rfl (ix2 e k)
    (fun b => match b with | ⟨0, _⟩ => fun _ => rfl | ⟨1, _⟩ => fun hb => absurd rfl hb) rfl

/-- The first layer's product at (e, j): the four 128-term partial sums, over the source, destination, attribute and
    graph rows of edge e against the four consecutive 128-row stretches of the weights. -/
theorem v8_at (x0 x1 x2 : (⟨S400000x128, .f32⟩ : BufTy).Contents (Elt Ideal)) (x3 : (⟨S64x128, .f32⟩ : BufTy).Contents (Elt Ideal)) (x4 : (⟨S400000, .i32⟩ : BufTy).Contents (Elt Ideal)) (x5 : (⟨S512x100, .f32⟩ : BufTy).Contents (Elt Ideal)) (e : Fin 400000) (j : Fin 100) (h : (x4 (ix1 e)).toNat < 64) :
    val_main_v8 (F := Ideal) x0 x1 x2 x3 x4 x5 (ix2 e j)
      = (((∑ k : Fin 128, x0 (ix2 e k) * x5 (ix2 (⟨k.val, by have := k.isLt; omega⟩ : Fin 512) j))
        + (∑ k : Fin 128, x1 (ix2 e k) * x5 (ix2 (⟨128 + k.val, by have := k.isLt; omega⟩ : Fin 512) j)))
        + (∑ k : Fin 128, x2 (ix2 e k) * x5 (ix2 (⟨256 + k.val, by have := k.isLt; omega⟩ : Fin 512) j)))
        + (∑ k : Fin 128, x3 (ix2 (tableRow (x4 (ix1 e))) k) * x5 (ix2 (⟨384 + k.val, by have := k.isLt; omega⟩ : Fin 512) j)) := by
  have el : ∀ kk : Fin 512, lidx_main_v8 (ix2 e j) kk = ix2 e kk := fun kk =>
    funext fun a => match a with | ⟨0, _⟩ => rfl | ⟨1, _⟩ => rfl
  have er : ∀ kk : Fin 512, ridx_main_v8 (ix2 e j) kk = ix2 kk j := fun kk =>
    funext fun a => match a with | ⟨0, _⟩ => rfl | ⟨1, _⟩ => rfl
  rw [val_main_v8_apply, sum_four]
  simp only [el, er, v7_src, v7_dst, v7_attr, v7_graph, v6_at x3 x4 e _ h]

/-- The first hidden row of edge e. -/
def hid1 (x0 x1 x2 : (⟨S400000x128, .f32⟩ : BufTy).Contents (Elt Ideal)) (x3 : (⟨S64x128, .f32⟩ : BufTy).Contents (Elt Ideal)) (x4 : (⟨S400000, .i32⟩ : BufTy).Contents (Elt Ideal)) (x5 : (⟨S512x100, .f32⟩ : BufTy).Contents (Elt Ideal)) (x6 : (⟨S100, .f32⟩ : BufTy).Contents (Elt Ideal)) (e : Fin 400000) : Fin 100 → EReal :=
  relu (first (fun k => x0 (ix2 e k)) (fun k => x1 (ix2 e k)) (fun k => x2 (ix2 e k))
    (fun k => x3 (ix2 (tableRow (x4 (ix1 e))) k)) (fun k j => x5 (ix2 k j)) (fun j => x6 (ix1 j)))

theorem v12_at (x0 x1 x2 : (⟨S400000x128, .f32⟩ : BufTy).Contents (Elt Ideal)) (x3 : (⟨S64x128, .f32⟩ : BufTy).Contents (Elt Ideal)) (x4 : (⟨S400000, .i32⟩ : BufTy).Contents (Elt Ideal)) (x5 : (⟨S512x100, .f32⟩ : BufTy).Contents (Elt Ideal)) (x6 : (⟨S100, .f32⟩ : BufTy).Contents (Elt Ideal)) (e : Fin 400000) (j : Fin 100) (h : (x4 (ix1 e)).toNat < 64) :
    val_main_v12 (F := Ideal) x0 x1 x2 x3 x4 x5 x6 (ix2 e j) = hid1 x0 x1 x2 x3 x4 x5 x6 e j := by
  have eb : idx_main_v9 (idx_main_v10 (ix2 e j)) = ix1 j := funext fun a => match a with | ⟨0, _⟩ => rfl
  rw [val_main_v12_apply, val_main_v11_apply, v8_at x0 x1 x2 x3 x4 x5 e j h, val_main_v10_apply, val_main_v9_apply, eb,
    val_main_call0_v0_apply, val_main_call0_cst_apply]
  rfl

/-- The second hidden row of edge e. -/
def hid2 (x0 x1 x2 : (⟨S400000x128, .f32⟩ : BufTy).Contents (Elt Ideal)) (x3 : (⟨S64x128, .f32⟩ : BufTy).Contents (Elt Ideal)) (x4 : (⟨S400000, .i32⟩ : BufTy).Contents (Elt Ideal)) (x5 : (⟨S512x100, .f32⟩ : BufTy).Contents (Elt Ideal)) (x6 : (⟨S100, .f32⟩ : BufTy).Contents (Elt Ideal)) (x7 : (⟨S100x100, .f32⟩ : BufTy).Contents (Elt Ideal)) (x8 : (⟨S100, .f32⟩ : BufTy).Contents (Elt Ideal)) (e : Fin 400000) : Fin 100 → EReal :=
  relu (dense (hid1 x0 x1 x2 x3 x4 x5 x6 e) (fun k j => x7 (ix2 k j)) (fun j => x8 (ix1 j)))

theorem v17_at (x0 x1 x2 : (⟨S400000x128, .f32⟩ : BufTy).Contents (Elt Ideal)) (x3 : (⟨S64x128, .f32⟩ : BufTy).Contents (Elt Ideal)) (x4 : (⟨S400000, .i32⟩ : BufTy).Contents (Elt Ideal)) (x5 : (⟨S512x100, .f32⟩ : BufTy).Contents (Elt Ideal)) (x6 : (⟨S100, .f32⟩ : BufTy).Contents (Elt Ideal)) (x7 : (⟨S100x100, .f32⟩ : BufTy).Contents (Elt Ideal)) (x8 : (⟨S100, .f32⟩ : BufTy).Contents (Elt Ideal)) (e : Fin 400000) (j : Fin 100) (h : (x4 (ix1 e)).toNat < 64) :
    val_main_v17 (F := Ideal) x0 x1 x2 x3 x4 x5 x6 x7 x8 (ix2 e j) = hid2 x0 x1 x2 x3 x4 x5 x6 x7 x8 e j := by
  have el : ∀ k : Fin 100, lidx_main_v13 (ix2 e j) k = ix2 e k := fun k =>
    funext fun a => match a with | ⟨0, _⟩ => rfl | ⟨1, _⟩ => rfl
  have er : ∀ k : Fin 100, ridx_main_v13 (ix2 e j) k = ix2 k j := fun k =>
    funext fun a => match a with | ⟨0, _⟩ => rfl | ⟨1, _⟩ => rfl
  have eb : idx_main_v14 (idx_main_v15 (ix2 e j)) = ix1 j := funext fun a => match a with | ⟨0, _⟩ => rfl
  rw [val_main_v17_apply, val_main_v16_apply, val_main_v13_apply, val_main_v15_apply, val_main_v14_apply, eb,
    val_main_call1_v0_apply, val_main_call1_cst_apply]
  simp only [el, er, v12_at x0 x1 x2 x3 x4 x5 x6 e _ h]
  rfl

/-- The third hidden row of edge e. -/
def hid3 (x0 x1 x2 : (⟨S400000x128, .f32⟩ : BufTy).Contents (Elt Ideal)) (x3 : (⟨S64x128, .f32⟩ : BufTy).Contents (Elt Ideal)) (x4 : (⟨S400000, .i32⟩ : BufTy).Contents (Elt Ideal)) (x5 : (⟨S512x100, .f32⟩ : BufTy).Contents (Elt Ideal)) (x6 : (⟨S100, .f32⟩ : BufTy).Contents (Elt Ideal)) (x7 : (⟨S100x100, .f32⟩ : BufTy).Contents (Elt Ideal)) (x8 : (⟨S100, .f32⟩ : BufTy).Contents (Elt Ideal)) (x9 : (⟨S100x100, .f32⟩ : BufTy).Contents (Elt Ideal)) (x10 : (⟨S100, .f32⟩ : BufTy).Contents (Elt Ideal)) (e : Fin 400000) : Fin 100 → EReal :=
  relu (dense (hid2 x0 x1 x2 x3 x4 x5 x6 x7 x8 e) (fun k j => x9 (ix2 k j)) (fun j => x10 (ix1 j)))

theorem v22_at (x0 x1 x2 : (⟨S400000x128, .f32⟩ : BufTy).Contents (Elt Ideal)) (x3 : (⟨S64x128, .f32⟩ : BufTy).Contents (Elt Ideal)) (x4 : (⟨S400000, .i32⟩ : BufTy).Contents (Elt Ideal)) (x5 : (⟨S512x100, .f32⟩ : BufTy).Contents (Elt Ideal)) (x6 : (⟨S100, .f32⟩ : BufTy).Contents (Elt Ideal)) (x7 : (⟨S100x100, .f32⟩ : BufTy).Contents (Elt Ideal)) (x8 : (⟨S100, .f32⟩ : BufTy).Contents (Elt Ideal)) (x9 : (⟨S100x100, .f32⟩ : BufTy).Contents (Elt Ideal)) (x10 : (⟨S100, .f32⟩ : BufTy).Contents (Elt Ideal)) (e : Fin 400000) (j : Fin 100) (h : (x4 (ix1 e)).toNat < 64) :
    val_main_v22 (F := Ideal) x0 x1 x2 x3 x4 x5 x6 x7 x8 x9 x10 (ix2 e j) = hid3 x0 x1 x2 x3 x4 x5 x6 x7 x8 x9 x10 e j := by
  have el : ∀ k : Fin 100, lidx_main_v18 (ix2 e j) k = ix2 e k := fun k =>
    funext fun a => match a with | ⟨0, _⟩ => rfl | ⟨1, _⟩ => rfl
  have er : ∀ k : Fin 100, ridx_main_v18 (ix2 e j) k = ix2 k j := fun k =>
    funext fun a => match a with | ⟨0, _⟩ => rfl | ⟨1, _⟩ => rfl
  have eb : idx_main_v19 (idx_main_v20 (ix2 e j)) = ix1 j := funext fun a => match a with | ⟨0, _⟩ => rfl
  rw [val_main_v22_apply, val_main_v21_apply, val_main_v18_apply, val_main_v20_apply, val_main_v19_apply, eb,
    val_main_call2_v0_apply, val_main_call2_cst_apply]
  simp only [el, er, v17_at x0 x1 x2 x3 x4 x5 x6 x7 x8 e _ h]
  rfl

/-- The fourth layer's row of edge e, before normalisation. -/
def out4 (x0 x1 x2 : (⟨S400000x128, .f32⟩ : BufTy).Contents (Elt Ideal)) (x3 : (⟨S64x128, .f32⟩ : BufTy).Contents (Elt Ideal)) (x4 : (⟨S400000, .i32⟩ : BufTy).Contents (Elt Ideal)) (x5 : (⟨S512x100, .f32⟩ : BufTy).Contents (Elt Ideal)) (x6 : (⟨S100, .f32⟩ : BufTy).Contents (Elt Ideal)) (x7 : (⟨S100x100, .f32⟩ : BufTy).Contents (Elt Ideal)) (x8 : (⟨S100, .f32⟩ : BufTy).Contents (Elt Ideal)) (x9 : (⟨S100x100, .f32⟩ : BufTy).Contents (Elt Ideal)) (x10 : (⟨S100, .f32⟩ : BufTy).Contents (Elt Ideal)) (x11 : (⟨S100x128, .f32⟩ : BufTy).Contents (Elt Ideal)) (x12 : (⟨S128, .f32⟩ : BufTy).Contents (Elt Ideal)) (e : Fin 400000) : Fin 128 → EReal :=
  dense (hid3 x0 x1 x2 x3 x4 x5 x6 x7 x8 x9 x10 e) (fun k j => x11 (ix2 k j)) (fun j => x12 (ix1 j))

theorem v26_at (x0 x1 x2 : (⟨S400000x128, .f32⟩ : BufTy).Contents (Elt Ideal)) (x3 : (⟨S64x128, .f32⟩ : BufTy).Contents (Elt Ideal)) (x4 : (⟨S400000, .i32⟩ : BufTy).Contents (Elt Ideal)) (x5 : (⟨S512x100, .f32⟩ : BufTy).Contents (Elt Ideal)) (x6 : (⟨S100, .f32⟩ : BufTy).Contents (Elt Ideal)) (x7 : (⟨S100x100, .f32⟩ : BufTy).Contents (Elt Ideal)) (x8 : (⟨S100, .f32⟩ : BufTy).Contents (Elt Ideal)) (x9 : (⟨S100x100, .f32⟩ : BufTy).Contents (Elt Ideal)) (x10 : (⟨S100, .f32⟩ : BufTy).Contents (Elt Ideal)) (x11 : (⟨S100x128, .f32⟩ : BufTy).Contents (Elt Ideal)) (x12 : (⟨S128, .f32⟩ : BufTy).Contents (Elt Ideal)) (e : Fin 400000) (j : Fin 128) (h : (x4 (ix1 e)).toNat < 64) :
    val_main_v26 (F := Ideal) x0 x1 x2 x3 x4 x5 x6 x7 x8 x9 x10 x11 x12 (ix2 e j) = out4 x0 x1 x2 x3 x4 x5 x6 x7 x8 x9 x10 x11 x12 e j := by
  have el : ∀ k : Fin 100, lidx_main_v23 (ix2 e j) k = ix2 e k := fun k =>
    funext fun a => match a with | ⟨0, _⟩ => rfl | ⟨1, _⟩ => rfl
  have er : ∀ k : Fin 100, ridx_main_v23 (ix2 e j) k = ix2 k j := fun k =>
    funext fun a => match a with | ⟨0, _⟩ => rfl | ⟨1, _⟩ => rfl
  have eb : idx_main_v24 (idx_main_v25 (ix2 e j)) = ix1 j := funext fun a => match a with | ⟨0, _⟩ => rfl
  rw [val_main_v26_apply, val_main_v23_apply, val_main_v25_apply, val_main_v24_apply, eb]
  simp only [el, er, v22_at x0 x1 x2 x3 x4 x5 x6 x7 x8 x9 x10 e _ h]
  rfl

/-- The mean of the fourth layer's row of edge e. -/
theorem v30_at (x0 x1 x2 : (⟨S400000x128, .f32⟩ : BufTy).Contents (Elt Ideal)) (x3 : (⟨S64x128, .f32⟩ : BufTy).Contents (Elt Ideal)) (x4 : (⟨S400000, .i32⟩ : BufTy).Contents (Elt Ideal)) (x5 : (⟨S512x100, .f32⟩ : BufTy).Contents (Elt Ideal)) (x6 : (⟨S100, .f32⟩ : BufTy).Contents (Elt Ideal)) (x7 : (⟨S100x100, .f32⟩ : BufTy).Contents (Elt Ideal)) (x8 : (⟨S100, .f32⟩ : BufTy).Contents (Elt Ideal)) (x9 : (⟨S100x100, .f32⟩ : BufTy).Contents (Elt Ideal)) (x10 : (⟨S100, .f32⟩ : BufTy).Contents (Elt Ideal)) (x11 : (⟨S100x128, .f32⟩ : BufTy).Contents (Elt Ideal)) (x12 : (⟨S128, .f32⟩ : BufTy).Contents (Elt Ideal)) (e : Fin 400000) (h : (x4 (ix1 e)).toNat < 64) :
    val_main_v30 (F := Ideal) x0 x1 x2 x3 x4 x5 x6 x7 x8 x9 x10 x11 x12 (ix2 e (0 : Fin 1)) = mean128 (out4 x0 x1 x2 x3 x4 x5 x6 x7 x8 x9 x10 x11 x12 e) := by
  have e28 : idx_main_v28 (ix2 e (0 : Fin 1)) = ix1 e := funext fun a => match a with | ⟨0, _⟩ => rfl
  have e27 : ∀ k : Fin 128, idx_main_v27 (ix1 e) k = ix2 e k := fun k =>
    funext fun a => match a with | ⟨0, _⟩ => rfl | ⟨1, _⟩ => rfl
  rw [val_main_v30_apply, val_main_v28_apply, e28, val_main_v27_apply, val_main_cst_apply, val_main_v29_apply,
    val_main_cst_1_apply]
  simp only [e27, v26_at x0 x1 x2 x3 x4 x5 x6 x7 x8 x9 x10 x11 x12 e _ h, Ideal.hostDivf_def, Ideal.ofBits_def, Ideal.ofBits_zero_f32, zero_add]
  rfl

/-- The mean of the squared deviations of the fourth layer's row of edge e. -/
theorem v37_at (x0 x1 x2 : (⟨S400000x128, .f32⟩ : BufTy).Contents (Elt Ideal)) (x3 : (⟨S64x128, .f32⟩ : BufTy).Contents (Elt Ideal)) (x4 : (⟨S400000, .i32⟩ : BufTy).Contents (Elt Ideal)) (x5 : (⟨S512x100, .f32⟩ : BufTy).Contents (Elt Ideal)) (x6 : (⟨S100, .f32⟩ : BufTy).Contents (Elt Ideal)) (x7 : (⟨S100x100, .f32⟩ : BufTy).Contents (Elt Ideal)) (x8 : (⟨S100, .f32⟩ : BufTy).Contents (Elt Ideal)) (x9 : (⟨S100x100, .f32⟩ : BufTy).Contents (Elt Ideal)) (x10 : (⟨S100, .f32⟩ : BufTy).Contents (Elt Ideal)) (x11 : (⟨S100x128, .f32⟩ : BufTy).Contents (Elt Ideal)) (x12 : (⟨S128, .f32⟩ : BufTy).Contents (Elt Ideal)) (e : Fin 400000) (h : (x4 (ix1 e)).toNat < 64) :
    val_main_v37 (F := Ideal) x0 x1 x2 x3 x4 x5 x6 x7 x8 x9 x10 x11 x12 (ix2 e (0 : Fin 1))
      = mean128 (fun k => (out4 x0 x1 x2 x3 x4 x5 x6 x7 x8 x9 x10 x11 x12 e k - mean128 (out4 x0 x1 x2 x3 x4 x5 x6 x7 x8 x9 x10 x11 x12 e)) * (out4 x0 x1 x2 x3 x4 x5 x6 x7 x8 x9 x10 x11 x12 e k - mean128 (out4 x0 x1 x2 x3 x4 x5 x6 x7 x8 x9 x10 x11 x12 e))) := by
  have e35 : idx_main_v35 (ix2 e (0 : Fin 1)) = ix1 e := funext fun a => match a with | ⟨0, _⟩ => rfl
  have e34 : ∀ k : Fin 128, idx_main_v34 (ix1 e) k = ix2 e k := fun k =>
    funext fun a => match a with | ⟨0, _⟩ => rfl | ⟨1, _⟩ => rfl
  have e31 : ∀ k : Fin 128, idx_main_v31 (ix2 e k) = ix2 e (0 : Fin 1) := fun k =>
    funext fun a => match a with | ⟨0, _⟩ => rfl | ⟨1, _⟩ => rfl
  rw [val_main_v37_apply, val_main_v35_apply, e35, val_main_v34_apply, val_main_cst_2_apply, val_main_v36_apply,
    val_main_cst_3_apply]
  simp only [e34, val_main_v33_apply, val_main_v32_apply, val_main_v31_apply, e31, v30_at x0 x1 x2 x3 x4 x5 x6 x7 x8 x9 x10 x11 x12 e h,
    v26_at x0 x1 x2 x3 x4 x5 x6 x7 x8 x9 x10 x11 x12 e _ h, Ideal.hostDivf_def, Ideal.mulf_def, Ideal.subf_def, Ideal.ofBits_def, Ideal.ofBits_zero_f32,
    zero_add]
  rfl

/-- The reference's last stage at (e, q): the attribute of edge e plus the normalised fourth-layer row. -/
theorem v51_at (x0 x1 x2 : (⟨S400000x128, .f32⟩ : BufTy).Contents (Elt Ideal)) (x3 : (⟨S64x128, .f32⟩ : BufTy).Contents (Elt Ideal)) (x4 : (⟨S400000, .i32⟩ : BufTy).Contents (Elt Ideal)) (x5 : (⟨S512x100, .f32⟩ : BufTy).Contents (Elt Ideal)) (x6 : (⟨S100, .f32⟩ : BufTy).Contents (Elt Ideal)) (x7 : (⟨S100x100, .f32⟩ : BufTy).Contents (Elt Ideal)) (x8 : (⟨S100, .f32⟩ : BufTy).Contents (Elt Ideal)) (x9 : (⟨S100x100, .f32⟩ : BufTy).Contents (Elt Ideal)) (x10 : (⟨S100, .f32⟩ : BufTy).Contents (Elt Ideal)) (x11 : (⟨S100x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (e : Fin 400000) (q : Fin 128) (h : (x4 (ix1 e)).toNat < 64) :
    val_main_v51 (F := Ideal) x0 x1 x2 x3 x4 x5 x6 x7 x8 x9 x10 x11 x12 x13 x14 (ix2 e q)
      = x2 (ix2 e q) + norm (out4 x0 x1 x2 x3 x4 x5 x6 x7 x8 x9 x10 x11 x12 e) (fun j => x13 (ix1 j)) (fun j => x14 (ix1 j)) q := by
  have e38 : idx_main_v38 (ix2 e q) = ix2 e (0 : Fin 1) := funext fun a => match a with | ⟨0, _⟩ => rfl | ⟨1, _⟩ => rfl
  have e43 : idx_main_v43 (ix2 e q) = ix2 e (0 : Fin 1) := funext fun a => match a with | ⟨0, _⟩ => rfl | ⟨1, _⟩ => rfl
  have e45 : idx_main_v45 (idx_main_v46 (ix2 e q)) = ix1 q := funext fun a => match a with | ⟨0, _⟩ => rfl
  have e48 : idx_main_v48 (idx_main_v49 (ix2 e q)) = ix1 q := funext fun a => match a with | ⟨0, _⟩ => rfl
  rw [val_main_v51_apply, val_main_v50_apply, val_main_v47_apply, val_main_v44_apply, val_main_v39_apply,
    v26_at x0 x1 x2 x3 x4 x5 x6 x7 x8 x9 x10 x11 x12 e q h, val_main_v38_apply, e38, v30_at x0 x1 x2 x3 x4 x5 x6 x7 x8 x9 x10 x11 x12 e h, val_main_v43_apply, e43, val_main_v42_apply,
    val_main_v41_apply, v37_at x0 x1 x2 x3 x4 x5 x6 x7 x8 x9 x10 x11 x12 e h, val_main_v40_apply, val_main_cst_4_apply, val_main_v46_apply,
    val_main_v45_apply, e45, val_main_v49_apply, val_main_v48_apply, e48]
  rfl

/-- THE REFERENCE IS THE SPECIFICATION: with every graph id in range, the reference's last stage is the edge model's
    output array, row by row. -/
theorem ref_result (x0 x1 x2 : (⟨S400000x128, .f32⟩ : BufTy).Contents (Elt Ideal)) (x3 : (⟨S64x128, .f32⟩ : BufTy).Contents (Elt Ideal)) (x4 : (⟨S400000, .i32⟩ : BufTy).Contents (Elt Ideal)) (x5 : (⟨S512x100, .f32⟩ : BufTy).Contents (Elt Ideal)) (x6 : (⟨S100, .f32⟩ : BufTy).Contents (Elt Ideal)) (x7 : (⟨S100x100, .f32⟩ : BufTy).Contents (Elt Ideal)) (x8 : (⟨S100, .f32⟩ : BufTy).Contents (Elt Ideal)) (x9 : (⟨S100x100, .f32⟩ : BufTy).Contents (Elt Ideal)) (x10 : (⟨S100, .f32⟩ : BufTy).Contents (Elt Ideal)) (x11 : (⟨S100x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal))
    (hb : ∀ e : Fin 400000, (x4 (Idealize.ShloMosaic.ValueIdx.ix1 e)).toNat < 64) :
    Cert.ReferenceIdeal.Read.val_main_v51 (F := Ideal) x0 x1 x2 x3 x4 x5 x6 x7 x8 x9 x10 x11 x12 x13 x14 = Cert.EdgeRow.result x0 x1 x2 x3 x4 x5 x6 x7 x8 x9 x10 x11 x12 x13 x14 := by
  funext i
  obtain ⟨e, q, rfl⟩ : ∃ (e : Fin 400000) (q : Fin 128), i = ix2 e q := ⟨i 0, i 1, eq_ix2 i⟩
  rw [v51_at x0 x1 x2 x3 x4 x5 x6 x7 x8 x9 x10 x11 x12 x13 x14 e q (hb e)]
  rfl

end Cert.ReferenceIdeal.RefRow

end
-- ==== Proof.lean ====
/-
  An edge model on 400000 edges: for each edge the rows of `src`, `dest`, `edge_attr` and of the graph table `u` the
  edge's graph id selects, side by side (512 wide), go through three rectified dense layers of width 100 and a fourth
  of width 128, a layer normalisation over the 128 lanes, and `edge_attr` is added back.

  The kernel works through the edges 5000 rows at a time. It never forms the 512-wide row: the first layer is the
  sum of four 128-wide products against the four 128-row stretches of `W1`, and the graph row is obtained as the
  product of the table with the indicator of "the id is `g`" over the 64 table rows. The reference concatenates and
  gathers. Over the extended reals both are the row function `EdgeRow.row` on every edge: a sum over 512 terms is
  the sum of its four stretches (addition is associative), changes of float format are the identity, and a sum
  weighted by an indicator keeps the one term the id names. That last step, like the reference's own gather (which wraps
  a negative id and clamps one past the table), reads the id as a row of the table only for ids from 0 to 63: the
  precondition's last conjunct (`BatchRange.batch_lt`).

  `KerBlocks` reads the kernel's run: each grid point writes block `t` of `EdgeRow.result`, the 80 blocks tile the
  array. `RefRow` reads the reference's last stage as the same function. The frames are the generated ones; the
  idealization rewrote nothing, so `preserves` has nothing to state.
-/
import proofs.«420650_j49546742726707_3_alg».proof.Defs
import proofs.«420650_j49546742726707_3_alg».proof.Proof.Gen.Kernel
import proofs.«420650_j49546742726707_3_alg».proof.Proof.Gen.Kernel.Skeleton
import proofs.«420650_j49546742726707_3_alg».proof.Proof.Gen.Kernel.Launch
import proofs.«420650_j49546742726707_3_alg».proof.Proof.Gen.Kernel.Points
import proofs.«420650_j49546742726707_3_alg».proof.Proof.Gen.Kernel.Frame
import proofs.«420650_j49546742726707_3_alg».proof.Proof.Gen.KernelIdeal
import proofs.«420650_j49546742726707_3_alg».proof.Proof.Gen.KernelIdeal.Skeleton
import proofs.«420650_j49546742726707_3_alg».proof.Proof.Gen.KernelIdeal.Launch
import proofs.«420650_j49546742726707_3_alg».proof.Proof.Gen.KernelIdeal.Points
import proofs.«420650_j49546742726707_3_alg».proof.Proof.Gen.KernelIdeal.Frame
import proofs.«420650_j49546742726707_3_alg».proof.Proof.Gen.KernelIdeal.Value
import proofs.«420650_j49546742726707_3_alg».proof.Proof.Gen.ReferenceIdeal
import proofs.«420650_j49546742726707_3_alg».proof.Proof.Gen.ReferenceIdeal.Run
import proofs.«420650_j49546742726707_3_alg».proof.Proof.Gen.ReferenceIdeal.Read
import proofs.«420650_j49546742726707_3_alg».proof.Proof.Gen.Pre_finite_inputs
import proofs.«420650_j49546742726707_3_alg».proof.Proof.EdgeRow
import proofs.«420650_j49546742726707_3_alg».proof.Proof.BatchRange
import proofs.«420650_j49546742726707_3_alg».proof.Proof.KerBlocks
import proofs.«420650_j49546742726707_3_alg».proof.Proof.RefRow
import Idealize.ShloMosaic.Adequacy
import Idealize.ShloMosaic.Init

noncomputable section

namespace Cert.Proof

open Idealize.ShloMosaic Idealize.ShloMosaic.ValueIdx Idealize.SL.Sem

/-- The kernel's frame at the word level. -/
theorem frame_k : Cert.frame_Kernel := fun m ρ _ => Cert.Kernel.Gen.frame m ρ

/-- The kernel's frame over the extended reals. -/
theorem frame_ki : Cert.frame_KernelIdeal := fun m ρ _ => Cert.KernelIdeal.Gen.frame m ρ

/-- The reference's frame: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, with every graph id from 0 to 63, both programs end with the output
    array at `EdgeRow.result` of the arguments. -/
theorem algebraic : Cert.algebraic_KernelIdeal_ReferenceIdeal := by
  intro m ρ m' ρ' hpre hagree
  have hbk : ∀ (c : Dev Cert.KernelIdeal.nD) (e : Fin 400000),
      (m ((c.tc : Thread Cert.KernelIdeal.nD Cert.KernelIdeal.τ).loc Cert.KernelIdeal.main_arg4) (ix1 e)).toNat < 64 :=
    fun c e => Cert.BatchRange.batch_lt _ _ _ _ _ _ _ _ _ _ _ _ _ _ _ (hpre c) e
  refine ⟨fun c => Cert.EdgeRow.result
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14)), ?_, ?_⟩
  · refine (θ_run Cert.KernelIdeal.defs _ _).mono (fun r h c => ⟨(h c).1.trans ?_, (h c).2⟩)
      (Cert.KernelIdeal.Value.run_blocks (F := Ideal) m ρ)
    refine (Cert.KernelIdeal.KerBlocks.final m c fun e => ?_).trans (Cert.KernelIdeal.KerBlocks.whole_eq m c)
    rw [Cert.KernelIdeal.Gen.V_main_arg4]
    exact hbk c e
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14⟩ := hagree c
    rw [Cert.ReferenceIdeal.Read.val_main_v51_eq,
      Cert.ReferenceIdeal.RefRow.ref_result _ _ _ _ _ _ _ _ _ _ _ _ _ _ _ (fun e => by rw [a4]; exact hbk c e),
      a0, a1, a2, a3, a4, a5, a6, a7, a8, a9, a10, a11, a12, a13, a14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
